-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192 : Shape := ⟨1, ![8192]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x512 .f32) (main_arg1 : IVec S8192 32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_c_0 : IVec S_ 32 := constantI S_ 32 0#32
  let main_v4 : IVec S8192 32 := broadcastInDim S8192 ![] bcast_S_S8192 main_c_0
  let main_v5 : IVec S8192 1 := cmpi .sge main_arg1 main_v4
  let main_c_1 : IVec S_ 1 := constantI S_ 1 1#1
  let main_v6 : IVec S_ 1 := (fun x v => Host.reduce IntOp.andi x v reducesTo_S8192_S_d0 h_S_) main_v5 main_c_1
  let main_v7 : IVec S_ 1 := andi main_v3 main_v6
  let main_c_2 : IVec S_ 32 := constantI S_ 32 256#32
  let main_v8 : IVec S8192 32 := broadcastInDim S8192 ![] bcast_S_S8192 main_c_2
  let main_v9 : IVec S8192 1 := cmpi .slt main_arg1 main_v8
  let main_c_3 : IVec S_ 1 := constantI S_ 1 1#1
  let main_v10 : IVec S_ 1 := (fun x v => Host.reduce IntOp.andi x v reducesTo_S8192_S_d0 h_S_) main_v9 main_c_3
  let main_v11 : IVec S_ 1 := andi main_v7 main_v10
  main_v11
-- ==== Kernel.lean ====
abbrev S8192x512 : Shape := ⟨2, ![8192, 512]⟩
abbrev S8192 : Shape := ⟨1, ![8192]⟩
abbrev S_ : Shape := ⟨0, ![]⟩
abbrev S256 : Shape := ⟨1, ![256]⟩
abbrev S1x8192 : Shape := ⟨2, ![1, 8192]⟩
abbrev S256x1 : Shape := ⟨2, ![256, 1]⟩
abbrev S256x8192 : Shape := ⟨2, ![256, 8192]⟩
abbrev S256x512 : Shape := ⟨2, ![256, 512]⟩
abbrev S256x2048 : Shape := ⟨2, ![256, 2048]⟩
abbrev S2048x512 : Shape := ⟨2, ![2048, 512]⟩
abbrev S8192x1 : Shape := ⟨2, ![8192, 1]⟩

abbrev nBuf : Space → Nat
  | .hbm => 66
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S256, .i32⟩
  | .hbm, ⟨6, _⟩ => ⟨S1x8192, .i32⟩
  | .hbm, ⟨7, _⟩ => ⟨S256x1, .i32⟩
  | .hbm, ⟨8, _⟩ => ⟨S256x8192, .i32⟩
  | .hbm, ⟨9, _⟩ => ⟨S256x8192, .i32⟩
  | .hbm, ⟨10, _⟩ => ⟨S256x8192, .i1⟩
  | .hbm, ⟨11, _⟩ => ⟨S256x8192, .bf16⟩
  | .hbm, ⟨12, _⟩ => ⟨S8192x512, .bf16⟩
  | .hbm, ⟨13, _⟩ => ⟨S256x512, .f32⟩
  | .hbm, ⟨14, _⟩ => ⟨S_, .i32⟩
  | .hbm, ⟨15, _⟩ => ⟨S256, .i32⟩
  | .hbm, ⟨16, _⟩ => ⟨S_, .i32⟩
  | .hbm, ⟨17, _⟩ => ⟨S_, .i32⟩
  | .hbm, ⟨18, _⟩ => ⟨S8192, .i32⟩
  | .hbm, ⟨19, _⟩ => ⟨S8192, .i32⟩
  | .hbm, ⟨20, _⟩ => ⟨S_, .i32⟩
  | .hbm, ⟨21, _⟩ => ⟨S8192, .i32⟩
  | .hbm, ⟨22, _⟩ => ⟨S8192, .i1⟩
  | .hbm, ⟨23, _⟩ => ⟨S_, .i32⟩
  | .hbm, ⟨24, _⟩ => ⟨S8192, .i32⟩
  | .hbm, ⟨25, _⟩ => ⟨S8192, .i32⟩
  | .hbm, ⟨26, _⟩ => ⟨S8192, .i32⟩
  | .hbm, ⟨27, _⟩ => ⟨S8192x1, .i32⟩
  | .hbm, ⟨28, _⟩ => ⟨S_, .i32⟩
  | .hbm, ⟨29, _⟩ => ⟨S8192, .i32⟩
  | .hbm, ⟨30, _⟩ => ⟨S256, .i32⟩
  | .hbm, ⟨31, _⟩ => ⟨S256, .f32⟩
  | .hbm, ⟨32, _⟩ => ⟨S_, .f32⟩
  | .hbm, ⟨33, _⟩ => ⟨S256, .f32⟩
  | .hbm, ⟨34, _⟩ => ⟨S_, .i32⟩
  | .hbm, ⟨35, _⟩ => ⟨S8192, .i32⟩
  | .hbm, ⟨36, _⟩ => ⟨S8192, .i1⟩
  | .hbm, ⟨37, _⟩ => ⟨S_, .i32⟩
  | .hbm, ⟨38, _⟩ => ⟨S8192, .i32⟩
  | .hbm, ⟨39, _⟩ => ⟨S8192, .i32⟩
  | .hbm, ⟨40, _⟩ => ⟨S8192, .i32⟩
  | .hbm, ⟨41, _⟩ => ⟨S8192x1, .i32⟩
  | .hbm, ⟨42, _⟩ => ⟨S256, .f32⟩
  | .hbm, ⟨43, _⟩ => ⟨S256, .f32⟩
  | .hbm, ⟨44, _⟩ => ⟨S256x512, .f32⟩
  | .hbm, ⟨45, _⟩ => ⟨S256x512, .f32⟩
  | .hbm, ⟨46, _⟩ => ⟨S_, .f32⟩
  | .hbm, ⟨47, _⟩ => ⟨S256, .f32⟩
  | .hbm, ⟨48, _⟩ => ⟨S_, .f32⟩
  | .hbm, ⟨49, _⟩ => ⟨S256, .f32⟩
  | .hbm, ⟨50, _⟩ => ⟨S256, .f32⟩
  | .hbm, ⟨51, _⟩ => ⟨S256, .f32⟩
  | .hbm, ⟨52, _⟩ => ⟨S256, .f32⟩
  | .hbm, ⟨53, _⟩ => ⟨S_, .f32⟩
  | .hbm, ⟨54, _⟩ => ⟨S256, .f32⟩
  | .hbm, ⟨55, _⟩ => ⟨S256, .f32⟩
  | .hbm, ⟨56, _⟩ => ⟨S256, .f32⟩
  | .hbm, ⟨57, _⟩ => ⟨S256, .f32⟩
  | .hbm, ⟨58, _⟩ => ⟨S_, .f32⟩
  | .hbm, ⟨59, _⟩ => ⟨S_, .f32⟩
  | .hbm, ⟨60, _⟩ => ⟨S256, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .local _ .vmem, ⟨0, _⟩ => ⟨S256x2048, .bf16⟩
  | .local _ .vmem, ⟨1, _⟩ => ⟨S256x2048, .bf16⟩
  | .local _ .vmem, ⟨2, _⟩ => ⟨S2048x512, .bf16⟩
  | .local _ .vmem, ⟨3, _⟩ => ⟨S2048x512, .bf16⟩
  | .local _ .vmem, ⟨4, _⟩ => ⟨S256x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.hbm, 14, rfl⟩
abbrev main_v11 : Ref sig .tc := ⟨.hbm, 15, rfl⟩
abbrev main_c_0 : Ref sig .tc := ⟨.hbm, 16, rfl⟩
abbrev main_call0_v0 : Ref sig .tc := ⟨.hbm, 17, rfl⟩
abbrev main_call0_v1 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_c_5 : Ref sig .tc := ⟨.hbm, 34, rfl⟩
abbrev main_v23 : Ref sig .tc := ⟨.hbm, 35, rfl⟩
abbrev main_v24 : Ref sig .tc := ⟨.hbm, 36, rfl⟩
abbrev main_c_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_9 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_10 : Ref sig .tc := ⟨.hbm, 58, rfl⟩
abbrev main_v42 : Ref sig .tc := ⟨.hbm, 59, rfl⟩
abbrev main_v43 : Ref sig .tc := ⟨.hbm, 60, rfl⟩
abbrev main_cst_11 : Ref sig .tc := ⟨.hbm, 61, rfl⟩
abbrev main_v44 : Ref sig .tc := ⟨.hbm, 62, rfl⟩
abbrev main_cst_12 : Ref sig .tc := ⟨.hbm, 63, rfl⟩
abbrev main_v45 : Ref sig .tc := ⟨.hbm, 64, rfl⟩
abbrev main_v46 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  reducesTo_S8192x512_S8192_d1 : S8192x512.ReducesTo [1] S8192
  h_S_ : 0 < S_.numel
  bcast_S8192_S1x8192_1 : S8192.BroadcastsInDim S1x8192 (![1] : Fin 1 → Fin S1x8192.rank)
  bcast_S256_S256x1_0 : S256.BroadcastsInDim S256x1 (![0] : Fin 1 → Fin S256x1.rank)
  bcast_S1x8192_S256x8192_0_1 : S1x8192.BroadcastsInDim S256x8192 (![0, 1] : Fin 2 → Fin S256x8192.rank)
  bcast_S256x1_S256x8192_0_1 : S256x1.BroadcastsInDim S256x8192 (![0, 1] : Fin 2 → Fin S256x8192.rank)
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  bcast_S_S256 : S_.BroadcastsInDim S256 (![] : Fin 0 → Fin S256.rank)
  bcast_S_S8192 : S_.BroadcastsInDim S8192 (![] : Fin 0 → Fin S8192.rank)
  bcast_S8192_S8192x1_0 : S8192.BroadcastsInDim S8192x1 (![0] : Fin 1 → Fin S8192x1.rank)
  slices_S8192_S256_0 : S8192.Slices ![0] S256
  slices_S8192x512_S256x512_0_0 : S8192x512.Slices ![0, 0] S256x512
  reducesTo_S256x512_S256_d1 : S256x512.ReducesTo [1] S256
  reducesTo_S256_S_d0 : S256.ReducesTo [0] S_
  dot_S256x2048_S2048x512_S256x512_1_0_0_1_n_n_wf : DotDims.WF S256x2048 S2048x512 S256x512 [1] [0] [0] [1] [] []
  scatter_S256_S8192x1_S8192_n_0_0_1_wf : ScatterDims.WF S256 S8192x1 S8192 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S256x8192.size a
  hwx0_0 : ∀ i : grid0.Coords, EltTy.bits .bf16 = 32 ∨ (Rect.block (s := S256x8192) S256x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S8192x512.size a
  hwx0_1 : ∀ i : grid0.Coords, EltTy.bits .bf16 = 32 ∨ (Rect.block (s := S8192x512) S2048x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .f32 = 32 ∨ (Rect.block (s := S256x512) S256x512.size (cc0_transform_2 i) (hinb0_2 i)).WholeWords (EltTy.packing .f32)

variable [Facts₀]

def dot_S256x2048_S2048x512_S256x512_1_0_0_1_n_n : DotDims S256x2048 S2048x512 S256x512 where
  lhsContracting := [1]
  rhsContracting := [0]
  lhsNonContracting := [0]
  rhsNonContracting := [1]
  lhsBatch := []
  rhsBatch := []
  wf := dot_S256x2048_S2048x512_S256x512_1_0_0_1_n_n_wf
def scatter_S256_S8192x1_S8192_n_0_0_1 : ScatterDims S256 S8192x1 S8192 where
  updateWindowDims := []
  insertedWindowDims := [0]
  scatterDimsToOperandDims := [0]
  indexVectorDim := 1
  wf := scatter_S256_S8192x1_S8192_n_0_0_1_wf

abbrev win0_0 : Pipeline.Window sig grid0 :=
  Pipeline.Window.ofSpec (Memref.whole main_v8) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S256x512.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x512 : Shape := ⟨2, ![8192, 512]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S512x8192 : Shape := ⟨2, ![512, 8192]⟩

abbrev nBuf : Space → Nat
  | .hbm => 53
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S_, .i32⟩
  | .hbm, ⟨3, _⟩ => ⟨S8192, .i32⟩
  | .hbm, ⟨4, _⟩ => ⟨S8192, .i1⟩
  | .hbm, ⟨5, _⟩ => ⟨S_, .i32⟩
  | .hbm, ⟨6, _⟩ => ⟨S8192, .i32⟩
  | .hbm, ⟨7, _⟩ => ⟨S8192, .i32⟩
  | .hbm, ⟨8, _⟩ => ⟨S8192, .i32⟩
  | .hbm, ⟨9, _⟩ => ⟨S8192x1, .i32⟩
  | .hbm, ⟨10, _⟩ => ⟨S8192x512, .f32⟩
  | .hbm, ⟨11, _⟩ => ⟨S8192x512, .f32⟩
  | .hbm, ⟨12, _⟩ => ⟨S_, .f32⟩
  | .hbm, ⟨13, _⟩ => ⟨S8192, .f32⟩
  | .hbm, ⟨14, _⟩ => ⟨S8192x512, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S1x8192, .f32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S512x8192, .f32⟩
  | .hbm, ⟨23, _⟩ => ⟨S8192x8192, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S8192x8192, .f32⟩
  | .hbm, ⟨28, _⟩ => ⟨S_, .f32⟩
  | .hbm, ⟨29, _⟩ => ⟨S8192x8192, .f32⟩
  | .hbm, ⟨30, _⟩ => ⟨S8192x8192, .f32⟩
  | .hbm, ⟨31, _⟩ => ⟨S8192, .i32⟩
  | .hbm, ⟨32, _⟩ => ⟨S8192x1, .i32⟩
  | .hbm, ⟨33, _⟩ => ⟨S1x8192, .i32⟩
  | .hbm, ⟨34, _⟩ => ⟨S8192x8192, .i32⟩
  | .hbm, ⟨35, _⟩ => ⟨S8192x8192, .i32⟩
  | .hbm, ⟨36, _⟩ => ⟨S8192x8192, .i1⟩
  | .hbm, ⟨37, _⟩ => ⟨S8192x1, .i32⟩
  | .hbm, ⟨38, _⟩ => ⟨S1x8192, .i32⟩
  | .hbm, ⟨39, _⟩ => ⟨S8192x8192, .i32⟩
  | .hbm, ⟨40, _⟩ => ⟨S8192x8192, .i32⟩
  | .hbm, ⟨41, _⟩ => ⟨S8192x8192, .i1⟩
  | .hbm, ⟨42, _⟩ => ⟨S8192x8192, .i1⟩
  | .hbm, ⟨43, _⟩ => ⟨S8192x8192, .i32⟩
  | .hbm, ⟨44, _⟩ => ⟨S_, .i32⟩
  | .hbm, ⟨45, _⟩ => ⟨S_, .i32⟩
  | .hbm, ⟨46, _⟩ => ⟨S_, .f32⟩
  | .hbm, ⟨47, _⟩ => ⟨S_, .f32⟩
  | .hbm, ⟨48, _⟩ => ⟨S8192x8192, .f32⟩
  | .hbm, ⟨49, _⟩ => ⟨S8192x8192, .f32⟩
  | .hbm, ⟨50, _⟩ => ⟨S_, .f32⟩
  | .hbm, ⟨51, _⟩ => ⟨S_, .f32⟩
  | .hbm, ⟨52, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_c_4 : Ref sig .tc := ⟨.hbm, 44, rfl⟩
abbrev main_v36 : Ref sig .tc := ⟨.hbm, 45, rfl⟩
abbrev main_v37 : Ref sig .tc := ⟨.hbm, 46, rfl⟩
abbrev main_cst_5 : Ref sig .tc := ⟨.hbm, 47, rfl⟩
abbrev main_call0_v0 : Ref sig .tc := ⟨.hbm, 48, rfl⟩
abbrev main_v38 : Ref sig .tc := ⟨.hbm, 49, rfl⟩
abbrev main_cst_6 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  reducesTo_S8192x512_S8192_d1 : S8192x512.ReducesTo [1] S8192
  h_S_ : 0 < S_.numel
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x512_S512x8192_1_0 : S8192x512.Transposes [1, 0] S512x8192
  bcast_S_S8192x8192 : S_.BroadcastsInDim S8192x8192 (![] : Fin 0 → Fin S8192x8192.rank)
  natLt_1_32 : 1 < 32
  reducesTo_S8192x8192_S_d0_1 : S8192x8192.ReducesTo [0, 1] S_
  gather_S8192x512_S8192x1_S8192x512_1_0_n_n_0_1_1512_wf : GatherDims.WF S8192x512 S8192x1 S8192x512 [1] [0] [] [0] [] 1 ![1, 512]
  dot_S8192x512_S512x8192_S8192x8192_1_0_0_1_n_n_wf : DotDims.WF S8192x512 S512x8192 S8192x8192 [1] [0] [0] [1] [] []

variable [Facts₀]

def gather_S8192x512_S8192x1_S8192x512_1_0_n_n_0_1_1512 : GatherDims S8192x512 S8192x1 S8192x512 where
  offsetDims := [1]
  collapsedSliceDims := [0]
  operandBatchingDims := []
  startIndicesBatchingDims := []
  startIndexMap := [0]
  indexVectorDim := 1
  sliceSizes := ![1, 512]
  wf := gather_S8192x512_S8192x1_S8192x512_1_0_n_n_0_1_1512_wf
def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.KerDefs.lean ====
/-
  The kernel program's value, named piece by piece, at any float instance.

  Before the region the host forms `z2` (each row's sum of squares), the indicator matrix `oh[c, i] = (labels[i] = c)`
  as bf16, and `Z` as bf16. The region accumulates, over four blocks of 2048 rows, `oh_block · Z_block` into one
  resident [256, 512] block that the first point zeroes: `chain` is that running value. After the region the host
  counts the classes (an integer scatter-add of ones), sums `z2` by class (a float scatter-add), and combines them
  with the first 256 rows of `z2` and `Z` into the scalar result: `tailOf`.
-/
import proofs.«420697_j17214228922603_3_alg».proof.Proof.Gen.KernelIdeal.Frame

noncomputable section

namespace Cert.KernelIdeal.KVal

open Idealize.ShloMosaic Idealize.ShloMosaic.TcCoe Idealize.SL.Sem
open Cert.KernelIdeal Cert.KernelIdeal.Gen

variable {F : FTy → Type} [FloatOps F]

/-- Each row's sum of squares (`%1` of @main). -/
def z2Of (x0 : FVec F S8192x512 .f32) : FVec F S8192 .f32 :=
  Host.reduceAdd (mulf x0 x0) (constant S_ .f32 0x00000000#32) reducesTo_S8192x512_S8192_d1 h_S_

/-- The indicator matrix of the labels against the class ids 0 … 255, as bf16 (`%8` of @main). -/
def ohOf (x1 : IVec S8192 32) : FVec F S256x8192 .bf16 :=
  uitofp .bf16 (cmpi .eq
    (broadcastInDim S256x8192 ![0, 1] bcast_S1x8192_S256x8192_0_1 (broadcastInDim S1x8192 ![1] bcast_S8192_S1x8192_1 x1))
    (broadcastInDim S256x8192 ![0, 1] bcast_S256x1_S256x8192_0_1 (broadcastInDim S256x1 ![0] bcast_S256_S256x1_0 (iotaInDim S256 32 0))))

/-- `Z` narrowed to bf16 (`%9` of @main). -/
def zbOf (x0 : FVec F S8192x512 .f32) : FVec F S8192x512 .bf16 := truncf .bf16 x0 bitsLt_bf16_f32

variable (m : (ℓ : Loc nD τ sig) → Buf (Elt F) ℓ)

/-- The resident output block after point `n`: the zero block plus the products of the blocks met so far, in point order. -/
def chain (c : Dev nD) : (n : ℕ) → n < cfg0.N → Vec F S256x512 .f32
  | 0, h => k0_pay2 (k0_pay1 (F := F)) (iblk m c 0 ⟨0, h⟩) (iblk m c 1 ⟨0, h⟩)
  | n + 1, h => k0_pay2 (chain c n (Nat.lt_of_succ_lt h)) (iblk m c 0 ⟨n + 1, h⟩) (iblk m c 1 ⟨n + 1, h⟩)

theorem three_lt : 3 < cfg0.N := by rw [show cfg0.N = 4 from N_0]; decide

/-- The host operations after the region, as one function of the arguments, of `z2` and of the region's result. -/
def tailOf (x0 : FVec F S8192x512 .f32) (x1 : IVec S8192 32) (z2 : FVec F S8192 .f32) (sz : FVec F S256x512 .f32) :
    FVec F S_ .f32 :=
  let v11 : IVec S256 32 := broadcastInDim S256 ![] bcast_S_S256 (constantI S_ 32 0#32)
  let v12 : IVec S8192 32 := maxsi (broadcastInDim S8192 ![] bcast_S_S8192 (id (constantI S_ 32 0#32))) x1
  let v14 : IVec S8192 1 := cmpi .slt v12 (broadcastInDim S8192 ![] bcast_S_S8192 (constantI S_ 32 0#32))
  let v16 : IVec S8192 32 := addi v12 (broadcastInDim S8192 ![] bcast_S_S8192 (constantI S_ 32 256#32))
  let v17 : IVec S8192 32 := select v14 v16 v12
  let v18 : IVec S8192x1 32 := broadcastInDim S8192x1 ![0] bcast_S8192_S8192x1_0 v17
  let v19 : IVec S8192 32 := broadcastInDim S8192 ![] bcast_S_S8192 (constantI S_ 32 1#32)
  let v20 : IVec S256 32 := Host.scatter scatter_S256_S8192x1_S8192_n_0_0_1 IntOp.addi v11 v18 v19
  let v21 : FVec F S256 .f32 := sitofp .f32 v20
  let v22 : FVec F S256 .f32 := broadcastInDim S256 ![] bcast_S_S256 (constant S_ .f32 0x00000000#32)
  let v24 : IVec S8192 1 := cmpi .slt x1 (broadcastInDim S8192 ![] bcast_S_S8192 (constantI S_ 32 0#32))
  let v26 : IVec S8192 32 := addi x1 (broadcastInDim S8192 ![] bcast_S_S8192 (constantI S_ 32 256#32))
  let v27 : IVec S8192 32 := select v24 v26 x1
  let v28 : IVec S8192x1 32 := broadcastInDim S8192x1 ![0] bcast_S8192_S8192x1_0 v27
  let v29 : FVec F S256 .f32 := Host.scatterAdd scatter_S256_S8192x1_S8192_n_0_0_1 v22 v28 z2
  let v30 : FVec F S256 .f32 := extractStridedSlice S256 ![0] z2 slices_S8192_S256_0
  let v31 : FVec F S256x512 .f32 := extractStridedSlice S256x512 ![0, 0] x0 slices_S8192x512_S256x512_0_0
  let v32 : FVec F S256x512 .f32 := mulf v31 sz
  let v33 : FVec F S256 .f32 := Host.reduceAdd v32 (constant S_ .f32 0x00000000#32) reducesTo_S256x512_S256_d1 h_S_
  let v34 : FVec F S256 .f32 := broadcastInDim S256 ![] bcast_S_S256 (constant S_ .f32 0x3F800000#32)
  let v35 : FVec F S256 .f32 := subf v21 v34
  let v36 : FVec F S256 .f32 := mulf v21 v30
  let v37 : FVec F S256 .f32 := addf v36 v29
  let v38 : FVec F S256 .f32 := broadcastInDim S256 ![] bcast_S_S256 (constant S_ .f32 0x40000000#32)
  let v39 : FVec F S256 .f32 := mulf v38 v33
  let v40 : FVec F S256 .f32 := subf v37 v39
  let v41 : FVec F S256 .f32 := mulf v35 v40
  let v42 : FVec F S_ .f32 := Host.reduceAdd v41 (constant S_ .f32 0x00000000#32) reducesTo_S256_S_d0 h_S_
  let v43 : FVec F S256 .f32 := mulf v21 v35
  let v44 : FVec F S_ .f32 := Host.reduceAdd v43 (constant S_ .f32 0x00000000#32) reducesTo_S256_S_d0 h_S_
  let v45 : FVec F S_ .f32 := mulf (constant S_ .f32 0x44000000#32) v44
  Host.divf v42 v45

/-- The kernel program's result on core `c`. -/
def kerOut (c : Dev nD) : FVec F S_ .f32 :=
  tailOf (m ((c.tc : Thread nD τ).loc main_arg0)) (m ((c.tc : Thread nD τ).loc main_arg1))
    (z2Of (m ((c.tc : Thread nD τ).loc main_arg0))) (chain m c 3 three_lt)

end Cert.KernelIdeal.KVal

end
-- ==== Proof.KerBody.lean ====
/-
  The region's running value. At the first grid point the body zeroes the resident output block and then adds the
  product of the point's indicator block and row block to it; at every later point it adds the point's product to what
  the point before left. So after point `n` the block holds the zero block plus the products of points 0 … n, in order.
-/
import proofs.«420697_j17214228922603_3_alg».proof.Proof.KerDefs
import Idealize.ShloMosaic.Lib.Pipeline.Value
import Idealize.ShloMosaic.Lib.Tactic

noncomputable section

namespace Cert.KernelIdeal.KVal

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ)

theorem hz : (![0, 0] : Fin 2 → Nat) = fun _ => 0 := funext fun a => by fin_cases a <;> rfl

/-- A later point: the body leaves, in the output's buffer holding `xo`, `xo` plus the product of the two input blocks. -/
theorem out_B (c : Dev nD) (i : grid0.Coords) (a1 : Memref sig .tc .vmem S256x2048 .bf16) (h1 : a1.IsWhole)
    (a2 : Memref sig .tc .vmem S2048x512 .bf16) (h2 : a2.IsWhole) (a3 : Memref sig .tc .vmem S256x512 .f32) (h3 : a3.IsWhole)
    (hc : ¬cond0_0 i) (x0 : Vec F S256x2048 .bf16) (x1 : Vec F S2048x512 .bf16) (xo : Vec F S256x512 .f32) :
    out0_B_2 c i a1 h1 a2 h2 a3 h3 hc x0 x1 xo = k0_pay2 xo x0 x1 := by
  unfold out0_B_2
  rw [View.read_writes_eq_canon _ _ _ (cover0_B_2 c i a1 h1 a2 h2 a3 h3 hc x0 x1 xo)]
  unfold kernelRun0_B
  dsimp only
  rw [View.canon_unit_zero hz]
  simp only [View.readAt_eq_ld, h1.read_unread, h2.read_unread, h3.read_unread, View.ld_unit_zero (S := S256x512) hz,
    View.ld_unit_zero (S := S256x2048) hz, View.ld_unit_zero (S := S2048x512) hz]

/-- The first point: the body stores the zero block, reads it back, and leaves it plus the product of the two input blocks. -/
theorem out_A (c : Dev nD) (i : grid0.Coords) (a1 : Memref sig .tc .vmem S256x2048 .bf16) (h1 : a1.IsWhole)
    (a2 : Memref sig .tc .vmem S2048x512 .bf16) (h2 : a2.IsWhole) (a3 : Memref sig .tc .vmem S256x512 .f32) (h3 : a3.IsWhole)
    (hc : cond0_0 i) (x0 : Vec F S256x2048 .bf16) (x1 : Vec F S2048x512 .bf16) :
    out0_A_2 c i a1 h1 a2 h2 a3 h3 hc x0 x1 = k0_pay2 (k0_pay1 (F := F)) x0 x1 := by
  unfold out0_A_2
  rw [View.read_writes_eq_canon _ _ _ (cover0_A_2 c i a1 h1 a2 h2 a3 h3 hc x0 x1)]
  unfold kernelRun0_A
  dsimp only
  sl_unfold_words
  rw [View.canon_cons_unit_zero (S := S256x512) hz, View.readCov_unit_zero (S := S256x512) _ hz]
  simp only [View.readAt_eq_ld, h1.read_unread, h2.read_unread, View.ld_unit_zero (S := S256x512) hz,
    View.ld_unit_zero (S := S256x2048) hz, View.ld_unit_zero (S := S2048x512) hz]

/-- What the output's buffer holds after point `n` is the running value `chain`: by induction on the point. -/
theorem outsAt_eq (c : Dev nD) : ∀ (n : ℕ) (h : n < cfg0.N), outsAt0 m c n h = chain m c n h
  | 0, h => (outsAt0_A m c ⟨0, h⟩ rfl).trans (out_A ..)
  | n + 1, h => by
    have hN : cfg0.N = 4 := N_0
    have hB : ¬(⟨n + 1, h⟩ : Fin cfg0.N).val % 4 = 0 := by dsimp only; omega
    rw [outsAt0_B m c ⟨n + 1, h⟩ hB, out_B]
    show k0_pay2 (outsAt0 m c n _) _ _ = k0_pay2 (chain m c n _) _ _
    rw [outsAt_eq c n]

end Cert.KernelIdeal.KVal

end
-- ==== Proof.KerFinal.lean ====
/-
  The region's result array. The output window is written back once, after the last grid point, and its one block is the
  whole [256, 512] array at offset zero: so the array ends holding the running value after point 3.
-/
import proofs.«420697_j17214228922603_3_alg».proof.Proof.KerBody

noncomputable section

namespace Cert.KernelIdeal.KVal

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ)

/-- The running value after the last point, as contents of the result array. -/
abbrev result (c : Dev nD) : Buf (Elt F) ((c : Thread nD τ).loc main_v10) := chain m c 3 three_lt

/-- The output window's block at the last point starts at the array's origin, -/
theorem origin_last : (fun a => win0_2.index t0_3 a * main_v10.ty.shape.size a) = fun _ => 0 :=
  funext fun a => by fin_cases a <;> decide

/-- and only the last point writes the window back. -/
theorem flush_only_last (t : Fin cfg0.N) (hf : (cfg0.win 2).flush t = true) : t = t0_3 := by
  have hN : cfg0.N = 4 := N_0
  have h3 := (flush0_2 t).mp hf
  have := t.isLt
  exact Fin.ext (by show t.val = 3; omega)

/-- What that write-back writes is the running value after point 3, read through the block. -/
theorem flushed_eq (c : Dev nD) (t : Fin cfg0.N) (hf : (cfg0.win 2).flush t = true) :
    (dats m 0 c).flushed 2 t = ((cfg0.win 2).blk t).view.read (Elt F) (result m c) := by
  obtain rfl := flush_only_last t hf
  show (cfg0.win 2).cut (grid0.coords t0_3) ((dats m 0 c).after 2 t0_3) = _
  rw [after0_2, outsAt_eq]
  exact (Memref.read_access_unit_zero (Elt F) main_v10 origin_last
    (fun a => by rw [congrFun origin_last a]; simp) (result m c)).symm

/-- Every element of the array lies in the block written back at point 3. -/
theorem covered (i : ((cfg0.win 2).arr.view.loc ((0 : Dev nD).tc : Thread nD τ)).2.ty.Idx) :
    i ∈ ((cfg0.win 2).blk t0_3).view.set := by
  show i ∈ ((View.whole main_v10).slice (win0_2.rect t0_3)).set
  rw [View.set_slice_whole, Rect.mem_set_unit]
  intro a
  have h0 : (i 0 : Nat) < 256 := (i 0).isLt
  have h1 : (i 1 : Nat) < 512 := (i 1).isLt
  have e0 : win0_2.index t0_3 0 * win0_2.size 0 = 0 := by decide +kernel
  have e1 : win0_2.index t0_3 1 * win0_2.size 1 = 0 := by decide +kernel
  have s0 : win0_2.xsize (grid0.coords t0_3) 0 = 256 := by decide +kernel
  have s1 : win0_2.xsize (grid0.coords t0_3) 1 = 512 := by decide +kernel
  match a with
  | ⟨0, _⟩ =>
    show win0_2.index t0_3 0 * win0_2.size 0 ≤ (i 0 : Nat)
      ∧ (i 0 : Nat) < win0_2.index t0_3 0 * win0_2.size 0 + win0_2.xsize (grid0.coords t0_3) 0
    rw [e0, s0]; omega
  | ⟨1, _⟩ =>
    show win0_2.index t0_3 1 * win0_2.size 1 ≤ (i 1 : Nat)
      ∧ (i 1 : Nat) < win0_2.index t0_3 1 * win0_2.size 1 + win0_2.xsize (grid0.coords t0_3) 1
    rw [e1, s1]; omega

/-- So the result array ends holding the running value after point 3. -/
theorem final (c : Dev nD) : (dats m 0 c).arrAt 2 cfg0.N = result m c :=
  (dats m 0 c).arrAt_eq_of_cover 2 (result m c) (flushed_eq m c) fun i =>
    ⟨t0_3, (flush0_2 t0_3).mpr rfl, covered i⟩

end Cert.KernelIdeal.KVal

end
-- ==== Proof.KerHost.lean ====
/-
  The kernel program's host operations around the region, read back as functions of the arguments: what the region finds
  in the three arrays the host computed before it, and the result of the operations after it.
-/
import proofs.«420697_j17214228922603_3_alg».proof.Proof.KerDefs
import Idealize.ShloMosaic.Lib.StableHlo.Run

noncomputable section

namespace Cert.KernelIdeal.KVal

open Idealize.ShloMosaic Idealize.ShloMosaic.TcCoe Idealize.SL.Sem Idealize.ShloMosaic.StableHlo
open Idealize.ShloMosaic.Pipeline (Dat)
open Cert.KernelIdeal Cert.KernelIdeal.Gen

variable {F : FTy → Type} [FloatOps F]
variable (m : (ℓ : Loc nD τ sig) → Buf (Elt F) ℓ)

/-- The region finds the rows' sums of squares in `%1`. -/
theorem V_v1 (c : Dev nD) : V m c main_v1 = z2Of (m ((c.tc : Thread nD τ).loc main_arg0)) := by
  -- `%1` is written once, by the row reduction of `%0 = arg0 * arg0` from the zero constant
  show StableHlo.after hostOps0 (fun b => m (c, b)) (Proc.devRef .tc main_v1) = _
  after_results
  rfl

/-- The region finds the indicator matrix in `%8`. -/
theorem V_v8 (c : Dev nD) : V m c main_v8 = ohOf (m ((c.tc : Thread nD τ).loc main_arg1)) := by
  -- `%8` is the comparison of the two broadcasts (labels along rows, class ids along columns), converted to bf16
  show StableHlo.after hostOps0 (fun b => m (c, b)) (Proc.devRef .tc main_v8) = _
  after_results
  rfl

/-- The region finds `Z` narrowed to bf16 in `%9`. -/
theorem V_v9 (c : Dev nD) : V m c main_v9 = zbOf (m ((c.tc : Thread nD τ).loc main_arg0)) := by
  -- `%9` is the last operation before the region: `arg0` narrowed
  show StableHlo.after hostOps0 (fun b => m (c, b)) (Proc.devRef .tc main_v9) = _
  after_results
  rfl

/-- The operations after the region leave `tailOf` of the arguments, of `z2` and of the region's result in `%46`. -/
theorem tail_eq (c : Dev nD) (sz : Vec F S256x512 .f32) (hsz : (dats m 0 c).arrAt 2 cfg0.N = sz) :
    Pipeline.afterTail₀ cfgs (dats m) 0 (V0 m) [hostOps1, hostOps1_1, hostOps1_2] c main_v46
      = tailOf (m ((c.tc : Thread nD τ).loc main_arg0)) (m ((c.tc : Thread nD τ).loc main_arg1))
          (z2Of (m ((c.tc : Thread nD τ).loc main_arg0))) sz := by
  unfold Pipeline.afterTail₀
  simp only [hostOps1, hostOps1_1, hostOps1_2, List.flatten_cons, List.flatten_nil, List.append_nil, List.cons_append,
    List.nil_append]
  -- the four buffers the later operations read without having written them: the region's result array (window 2),
  -- and three buffers that are no array of the pipeline, hence as the region found them
  have h10 : Pipeline.withArrays (cfgs 0).spec c (V0 m c) (fun w => (dats m 0 c).arrAt w (cfgs 0).N)
      (Proc.devRef .tc main_v10) = sz :=
    (Pipeline.withArrays_arr spec0 launch0.win.arr_inj c _ _ 2).trans hsz
  have h1 : Pipeline.withArrays (cfgs 0).spec c (V0 m c) (fun w => (dats m 0 c).arrAt w (cfgs 0).N)
      (Proc.devRef .tc main_v1) = z2Of (m ((c.tc : Thread nD τ).loc main_arg0)) :=
    (Pipeline.withArrays_of_ne _ c (V0 m c) _ main_v1 (by decide : ∀ w, Pipeline.arrRef spec0 w ≠ main_v1)).trans
      (V_v1 m c)
  have ha0 : Pipeline.withArrays (cfgs 0).spec c (V0 m c) (fun w => (dats m 0 c).arrAt w (cfgs 0).N)
      (Proc.devRef .tc main_arg0) = m ((c.tc : Thread nD τ).loc main_arg0) :=
    (Pipeline.withArrays_of_ne _ c (V0 m c) _ main_arg0 (by decide : ∀ w, Pipeline.arrRef spec0 w ≠ main_arg0)).trans
      (V_main_arg0 m c)
  have ha1 : Pipeline.withArrays (cfgs 0).spec c (V0 m c) (fun w => (dats m 0 c).arrAt w (cfgs 0).N)
      (Proc.devRef .tc main_arg1) = m ((c.tc : Thread nD τ).loc main_arg1) :=
    (Pipeline.withArrays_of_ne _ c (V0 m c) _ main_arg1 (by decide : ∀ w, Pipeline.arrRef spec0 w ≠ main_arg1)).trans
      (V_main_arg1 m c)
  -- from here the contents at the region's exit are an arbitrary valuation `W` known at those four buffers only
  generalize Pipeline.withArrays (cfgs 0).spec c (V0 m c) (fun w => (dats m 0 c).arrAt w (cfgs 0).N) = W
    at h10 h1 ha0 ha1 ⊢
  -- each operation's result at its own buffer is its function of its operands' contents; elsewhere nothing changes
  after_results_simp
  rw [h10, h1, ha0, ha1]
  -- the composed term is `tailOf`'s, binding by binding (the inlined call's transports are identities)
  rfl

end Cert.KernelIdeal.KVal

end
-- ==== Proof.KerSegIdeal.lean ====
/-
  The region's result over the extended reals: element (p, q) of the resident block after the last grid point is the sum
  over ALL 8192 rows `i` of `oh[p, i] · Zb[i, q]`. Each point adds the product of its [256, 2048] and [2048, 512] blocks,
  a sum over the point's 2048 rows; point `t`'s blocks sit at rows `2048 t … 2048 t + 2047` of the two arrays; and the
  four runs of 2048 rows make up the 8192.
-/
import proofs.«420697_j17214228922603_3_alg».proof.Proof.KerDefs
import Idealize.ShloMosaic.Lib.Pipeline.Value
import Idealize.ShloMosaic.Lib.ValueIdx
import Idealize.ShloMosaic.PureOps.Ideal.Laws
import Mathlib.Algebra.BigOperators.Fin

noncomputable section

namespace Cert.KernelIdeal.KVal

open Idealize.ShloMosaic Idealize.ShloMosaic.TcCoe Idealize.SL.Sem Idealize.ShloMosaic.ValueIdx
open Cert.KernelIdeal Cert.KernelIdeal.Gen

/-! ## The body's product, read at an element -/

theorem lhs_axis0 (i : S256x512.Idx) (q : dot_S256x2048_S2048x512_S256x512_1_0_0_1_n_n.contr.Idx) : (dot_S256x2048_S2048x512_S256x512_1_0_0_1_n_n.lhsIdx i q 0).val = (i 0).val := by
  unfold DotDims.lhsIdx
  rw [dif_neg (show ¬(0 : Fin S256x2048.rank) ∈ dot_S256x2048_S2048x512_S256x512_1_0_0_1_n_n.lhsBatch by decide),
    dif_pos (show (0 : Fin S256x2048.rank) ∈ dot_S256x2048_S2048x512_S256x512_1_0_0_1_n_n.lhsNonContracting by decide)]
  rfl
theorem lhs_axis1 (i : S256x512.Idx) (q : dot_S256x2048_S2048x512_S256x512_1_0_0_1_n_n.contr.Idx) : (dot_S256x2048_S2048x512_S256x512_1_0_0_1_n_n.lhsIdx i q 1).val = (q ⟨0, by decide⟩).val :=
  dot_S256x2048_S2048x512_S256x512_1_0_0_1_n_n.lhsIdx_val_of_single rfl i q
theorem rhs_axis0 (i : S256x512.Idx) (q : dot_S256x2048_S2048x512_S256x512_1_0_0_1_n_n.contr.Idx) : (dot_S256x2048_S2048x512_S256x512_1_0_0_1_n_n.rhsIdx i q 0).val = (q ⟨0, by decide⟩).val :=
  dot_S256x2048_S2048x512_S256x512_1_0_0_1_n_n.rhsIdx_val_of_single rfl i q
theorem rhs_axis1 (i : S256x512.Idx) (q : dot_S256x2048_S2048x512_S256x512_1_0_0_1_n_n.contr.Idx) : (dot_S256x2048_S2048x512_S256x512_1_0_0_1_n_n.rhsIdx i q 1).val = (i 1).val := by
  unfold DotDims.rhsIdx
  rw [dif_neg (show ¬(1 : Fin S2048x512.rank) ∈ dot_S256x2048_S2048x512_S256x512_1_0_0_1_n_n.rhsBatch by decide),
    dif_pos (show (1 : Fin S2048x512.rank) ∈ dot_S256x2048_S2048x512_S256x512_1_0_0_1_n_n.rhsNonContracting by decide)]
  rfl

/-- The zero block the first point stores. -/
theorem pay1_apply (j : S256x512.Idx) : k0_pay1 (F := Ideal) j = 0 := by
  show Ideal.ofBits .f32 0x00000000#32 = 0
  exact Ideal.ofBits_zero_f32

/-- One point's update at element (p, q): what was there plus the sum over the point's 2048 rows. -/
theorem pay2_apply (acc : Vec Ideal S256x512 .f32) (a : Vec Ideal S256x2048 .bf16) (b : Vec Ideal S2048x512 .bf16)
    (p : Fin 256) (q : Fin 512) :
    k0_pay2 (F := Ideal) acc a b (ix2 p q) = acc (ix2 p q) + ∑ k : Fin 2048, a (ix2 p k) * b (ix2 k q) := by
  unfold k0_pay2
  simp only [shapeCast_self]
  show acc (ix2 p q) + FloatOps.matmul (F := Ideal) dot_S256x2048_S2048x512_S256x512_1_0_0_1_n_n none a b (constant (F := Ideal) S256x512 .f32 0x00000000#32) (ix2 p q) = _
  rw [Ideal.matmul_constant_zero_apply, ← Equiv.sum_comp (ValueIdx.contrEquiv1 dot_S256x2048_S2048x512_S256x512_1_0_0_1_n_n 2048 rfl rfl).symm]
  refine congrArg (acc (ix2 p q) + ·) (Finset.sum_congr rfl fun k _ => ?_)
  have hk := ValueIdx.contrEquiv1_symm_val dot_S256x2048_S2048x512_S256x512_1_0_0_1_n_n 2048 rfl rfl k
  have el : dot_S256x2048_S2048x512_S256x512_1_0_0_1_n_n.lhsIdx (ix2 p q) ((ValueIdx.contrEquiv1 dot_S256x2048_S2048x512_S256x512_1_0_0_1_n_n 2048 rfl rfl).symm k) = ix2 p k := funext fun a => Fin.ext (by
    match a with
    | ⟨0, _⟩ => exact lhs_axis0 _ _
    | ⟨1, _⟩ => exact (lhs_axis1 _ _).trans hk)
  have er : dot_S256x2048_S2048x512_S256x512_1_0_0_1_n_n.rhsIdx (ix2 p q) ((ValueIdx.contrEquiv1 dot_S256x2048_S2048x512_S256x512_1_0_0_1_n_n 2048 rfl rfl).symm k) = ix2 k q := funext fun a => Fin.ext (by
    match a with
    | ⟨0, _⟩ => exact (rhs_axis0 _ _).trans hk
    | ⟨1, _⟩ => exact rhs_axis1 _ _)
  rw [el, er]

/-! ## The blocks the points read, and the four runs of rows -/

variable (m : (ℓ : Loc nD τ sig) → Buf (Elt Ideal) ℓ)

/-- The indicator matrix the region finds, at its literal type. -/
abbrev ohArr (c : Dev nD) : S256x8192.Idx → EReal := V m c main_v8
/-- The bf16 copy of `Z` the region finds, at its literal type. -/
abbrev zbArr (c : Dev nD) : S8192x512.Idx → EReal := V m c main_v9
/-- Point `t`'s two input blocks, at their literal types. -/
abbrev ohBlk (c : Dev nD) (t : Fin cfg0.N) : S256x2048.Idx → EReal := iblk m c 0 t
abbrev zbBlk (c : Dev nD) (t : Fin cfg0.N) : S2048x512.Idx → EReal := iblk m c 1 t

/-- Grid point `n` of the four. -/
abbrev pt (n : ℕ) (h : n < 4) : Fin cfg0.N := ⟨n, by rw [show cfg0.N = 4 from N_0]; exact h⟩

/-- Row `k` of point `t`'s blocks is row `2048 t + k` of the arrays. -/
abbrev row (t : Fin 4) (k : Fin 2048) : Fin 8192 := ⟨2048 * t.val + k.val, by omega⟩

/-- The 8192 rows are the four runs of 2048. -/
theorem sum_rows (G : Fin 8192 → EReal) : ∑ i, G i = ∑ t : Fin 4, ∑ k : Fin 2048, G (row t k) := by
  rw [← Fintype.sum_prod_type' (f := fun t k => G (row t k))]
  refine (Fintype.sum_equiv (finProdFinEquiv (m := 4) (n := 2048)) (fun x => G (row x.1 x.2)) G (fun x => ?_)).symm
  refine congrArg G (Fin.ext ?_)
  show 2048 * x.1.val + x.2.val = x.2.val + 2048 * x.1.val
  omega

theorem lt_four (t : Fin cfg0.N) : t.val < 4 := lt_of_lt_of_eq t.isLt (show cfg0.N = 4 from N_0)

/-- The indicator window moves along the columns: block `(0, t)`. -/
theorem index_w0 (t : Fin cfg0.N) : win0_0.index t 0 = 0 ∧ win0_0.index t 1 = t.val := by
  rcases fin_N0 t with rfl | rfl | rfl | rfl <;> decide
/-- The row window moves along the rows: block `(t, 0)`. -/
theorem index_w1 (t : Fin cfg0.N) : win0_1.index t 0 = t.val ∧ win0_1.index t 1 = 0 := by
  rcases fin_N0 t with rfl | rfl | rfl | rfl <;> decide

/-- Point `t`'s indicator block at (p, k) is the indicator matrix at (p, 2048 t + k). -/
theorem iblk0_apply (c : Dev nD) (t : Fin cfg0.N) (p : Fin 256) (k : Fin 2048) :
    ohBlk m c t (ix2 p k) = ohArr m c (ix2 p (row ⟨t.val, lt_four t⟩ k)) := by
  unfold ohBlk ohArr iblk
  rw [View.read_apply]
  show V m c main_v8 _ = V m c main_v8 _
  congr 1
  funext a
  apply Fin.ext
  match a with
  | ⟨0, _⟩ => show win0_0.index t 0 * 256 + 1 * p.val = p.val; rw [(index_w0 t).1]; omega
  | ⟨1, _⟩ => show win0_0.index t 1 * 2048 + 1 * k.val = 2048 * t.val + k.val; rw [(index_w0 t).2]; omega

/-- Point `t`'s row block at (k, q) is the bf16 matrix at (2048 t + k, q). -/
theorem iblk1_apply (c : Dev nD) (t : Fin cfg0.N) (k : Fin 2048) (q : Fin 512) :
    zbBlk m c t (ix2 k q) = zbArr m c (ix2 (row ⟨t.val, lt_four t⟩ k) q) := by
  unfold zbBlk zbArr iblk
  rw [View.read_apply]
  show V m c main_v9 _ = V m c main_v9 _
  congr 1
  funext a
  apply Fin.ext
  match a with
  | ⟨0, _⟩ => show win0_1.index t 0 * 2048 + 1 * k.val = 2048 * t.val + k.val; rw [(index_w1 t).1]; omega
  | ⟨1, _⟩ => show win0_1.index t 1 * 512 + 1 * q.val = q.val; rw [(index_w1 t).2]; omega

/-! ## The result after the last point -/

/-- Element (p, q) of the region's result: the sum over all rows of indicator times entry. -/
theorem chain_apply (c : Dev nD) (p : Fin 256) (q : Fin 512) :
    chain m c 3 three_lt (ix2 p q)
      = ∑ i : Fin 8192, ohArr m c (ix2 p i) * zbArr m c (ix2 i q) := by
  have e : chain m c 3 three_lt
      = k0_pay2 (F := Ideal) (k0_pay2 (F := Ideal) (k0_pay2 (F := Ideal) (k0_pay2 (F := Ideal) (k0_pay1 (F := Ideal)) (ohBlk m c (pt 0 (by decide))) (zbBlk m c (pt 0 (by decide))))
          (ohBlk m c (pt 1 (by decide))) (zbBlk m c (pt 1 (by decide))))
          (ohBlk m c (pt 2 (by decide))) (zbBlk m c (pt 2 (by decide))))
          (ohBlk m c (pt 3 (by decide))) (zbBlk m c (pt 3 (by decide))) := rfl
  rw [e, pay2_apply, pay2_apply, pay2_apply, pay2_apply, pay1_apply, zero_add]
  simp only [iblk0_apply, iblk1_apply]
  rw [sum_rows, Fin.sum_univ_four]
  rfl

end Cert.KernelIdeal.KVal

end
-- ==== Proof.Spec.lean ====
/-
  The mathematics of the certificate, over the reals, free of both programs.

  Rows `i : ι` of a matrix `Z` carry a class `l i : κ`; a class `c` doubles as the row `e c` (its anchor).
  The reference averages, over the ordered pairs `i ≠ j` of one class, the mean squared difference between the
  anchor of the class and row `j`, expanded as `(|a|² + |z|² − 2 a·z) / 512`. The kernel groups the same sum by
  class: with `n` the size of class `c`, `S` the sum of its rows and `Q` the sum of their squared norms, the pairs of
  the class contribute `(n − 1) (n |a|² + Q − 2 a·S)`, because the summand does not depend on `i` inside a class and
  each `j` of the class meets `n − 1` partners. The number of pairs is `∑ n (n − 1)`, positive as soon as there
  are more rows than classes.
-/
import Idealize.ShloMosaic.PureOps.Ideal
import Mathlib.Data.Fintype.Pigeonhole
import Mathlib.Algebra.BigOperators.Ring.Finset
import Mathlib.Algebra.BigOperators.Field

noncomputable section

namespace Cert.PairMse

open Idealize.ShloMosaic

variable {ι κ δ : Type} [Fintype ι] [Fintype κ] [Fintype δ] [DecidableEq ι] [DecidableEq κ]

/-- Squared norm of row `i`. -/
def sq (Z : ι → δ → ℝ) (i : ι) : ℝ := ∑ d, Z i d * Z i d

/-- The size of class `c`, as a real. -/
def cnt (l : ι → κ) (c : κ) : ℝ := ((Finset.univ.filter fun i => l i = c).card : ℝ)

/-- The indicator of "row `i` is of class `c`". -/
def oh (l : ι → κ) (c : κ) (i : ι) : ℝ := if l i = c then 1 else 0

/-- The sum of the rows of class `c`, coordinate `d`. -/
def segsum (l : ι → κ) (Z : ι → δ → ℝ) (c : κ) (d : δ) : ℝ := ∑ i, oh l c i * Z i d

/-- The sum of the squared norms of the rows of class `c`. -/
def sqsum (l : ι → κ) (Z : ι → δ → ℝ) (c : κ) : ℝ := ∑ i ∈ Finset.univ.filter (fun i => l i = c), sq Z i

/-- The kernel's numerator: the pair sum grouped by class. -/
def kerNum (l : ι → κ) (e : κ → ι) (Z : ι → δ → ℝ) : ℝ :=
  ∑ c, (cnt l c - 1) * ((cnt l c * sq Z (e c) + sqsum l Z c) - 2 * ∑ d, Z (e c) d * segsum l Z c d)

/-- The kernel's count of pairs. -/
def kerPairs (l : ι → κ) : ℝ := ∑ c, cnt l c * (cnt l c - 1)

/-- The reference's summand at the pair `(i, j)`. -/
def refTerm (l : ι → κ) (e : κ → ι) (Z : ι → δ → ℝ) (i j : ι) : ℝ :=
  ((sq Z (e (l i)) + sq Z j) - 2 * ∑ d, Z (e (l i)) d * Z j d) / 512

/-- The reference's masked sum over all ordered pairs. -/
def refSum (l : ι → κ) (e : κ → ι) (Z : ι → δ → ℝ) : ℝ :=
  ∑ i, ∑ j, if l i = l j ∧ i ≠ j then refTerm l e Z i j else 0

/-- The reference's count of pairs. -/
def refPairs (l : ι → κ) : ℕ := (Finset.univ.filter fun p : ι × ι => l p.1 = l p.2 ∧ p.1 ≠ p.2).card

/-- More rows than classes: two rows share a class. -/
theorem refPairs_pos (l : ι → κ) (h : Fintype.card κ < Fintype.card ι) : 0 < refPairs l := by
  obtain ⟨x, y, hxy, hl⟩ := Fintype.exists_ne_map_eq_of_card_lt l h
  unfold refPairs
  rw [Finset.card_pos]
  exact ⟨(x, y), Finset.mem_filter.mpr ⟨Finset.mem_univ _, hl, hxy⟩⟩

/-- A fixed row `j` and a value `a` that does not depend on `i`: the partners `i ≠ j` of the class of `j`
number `cnt (l j) − 1`. The sum over the whole class is the sum over the partners plus the term at `i = j`. -/
private theorem sum_partners (l : ι → κ) (j : ι) (a : ℝ) :
    (∑ i, if l i = l j ∧ i ≠ j then a else 0) = (cnt l (l j) - 1) * a := by
  have hsplit : ∀ i, (if l i = l j then a else 0)
      = (if l i = l j ∧ i ≠ j then a else 0) + (if i = j then a else 0) := by
    intro i
    by_cases hij : i = j
    · subst hij
      rw [if_pos rfl, if_neg (fun hh => hh.2 rfl), if_pos rfl, zero_add]
    · by_cases hl : l i = l j
      · rw [if_pos hl, if_pos ⟨hl, hij⟩, if_neg hij, add_zero]
      · rw [if_neg hl, if_neg (fun hh => hl hh.1), if_neg hij, add_zero]
  have hall : (∑ i, if l i = l j then a else 0) = cnt l (l j) * a := by
    unfold cnt
    rw [← Finset.sum_filter, Finset.sum_const, nsmul_eq_mul]
  have hone : (∑ i, if i = j then a else 0) = a := by
    rw [Finset.sum_ite_eq' Finset.univ j (fun _ => a), if_pos (Finset.mem_univ j)]
  rw [Finset.sum_congr rfl (fun i _ => hsplit i), Finset.sum_add_distrib, hone] at hall
  linarith

/-- The masked sum over ordered pairs of a summand `g (l i) j`, which sees `i` only through its class, grouped by
class: each `j` of class `c` meets `cnt c − 1` partners. -/
private theorem pairSum (l : ι → κ) (g : κ → ι → ℝ) :
    (∑ i, ∑ j, if l i = l j ∧ i ≠ j then g (l i) j else 0)
      = ∑ c, (cnt l c - 1) * ∑ j ∈ Finset.univ.filter (fun j => l j = c), g c j := by
  rw [Finset.sum_comm]
  have hj : ∀ j, (∑ i, if l i = l j ∧ i ≠ j then g (l i) j else 0) = (cnt l (l j) - 1) * g (l j) j := by
    intro j
    rw [← sum_partners l j (g (l j) j)]
    refine Finset.sum_congr rfl (fun i _ => ?_)
    by_cases hh : l i = l j ∧ i ≠ j
    · rw [if_pos hh, if_pos hh, hh.1]
    · rw [if_neg hh, if_neg hh]
  rw [Finset.sum_congr rfl (fun j _ => hj j),
    ← Finset.sum_fiberwise Finset.univ l (fun j => (cnt l (l j) - 1) * g (l j) j)]
  refine Finset.sum_congr rfl (fun c _ => ?_)
  rw [Finset.mul_sum]
  refine Finset.sum_congr rfl (fun j hj' => ?_)
  rw [(Finset.mem_filter.mp hj').2]

/-- Counting the ordered pairs class by class. -/
theorem kerPairs_eq (l : ι → κ) : kerPairs l = (refPairs l : ℝ) := by
  calc kerPairs l
      = ∑ c, (cnt l c - 1) * ∑ _j ∈ Finset.univ.filter (fun j => l j = c), (1 : ℝ) := by
        unfold kerPairs
        refine Finset.sum_congr rfl (fun c _ => ?_)
        rw [Finset.sum_const, nsmul_eq_mul, mul_one]
        exact mul_comm _ _
    _ = ∑ i, ∑ j, if l i = l j ∧ i ≠ j then (1 : ℝ) else 0 := (pairSum l (fun _ _ => 1)).symm
    _ = (refPairs l : ℝ) := by
        unfold refPairs
        rw [Finset.card_filter, Nat.cast_sum, Fintype.sum_prod_type]
        refine Finset.sum_congr rfl (fun i _ => Finset.sum_congr rfl (fun j _ => ?_))
        rw [Nat.cast_ite, Nat.cast_one, Nat.cast_zero]

/-- The summand with the anchor of class `c`, summed over the rows of the class. -/
private theorem classSum (l : ι → κ) (e : κ → ι) (Z : ι → δ → ℝ) (c : κ) :
    (∑ j ∈ Finset.univ.filter (fun j => l j = c), ((sq Z (e c) + sq Z j) - 2 * ∑ d, Z (e c) d * Z j d) / 512)
      = ((cnt l c * sq Z (e c) + sqsum l Z c) - 2 * ∑ d, Z (e c) d * segsum l Z c d) / 512 := by
  have hd : ∀ d, (∑ j ∈ Finset.univ.filter (fun j => l j = c), Z (e c) d * Z j d)
      = Z (e c) d * segsum l Z c d := by
    intro d
    rw [← Finset.mul_sum, segsum, Finset.sum_filter]
    congr 1
    refine Finset.sum_congr rfl (fun i _ => ?_)
    unfold oh
    by_cases hh : l i = c
    · rw [if_pos hh, if_pos hh, one_mul]
    · rw [if_neg hh, if_neg hh, zero_mul]
  rw [← Finset.sum_div, Finset.sum_sub_distrib, Finset.sum_add_distrib, Finset.sum_const, nsmul_eq_mul,
    ← Finset.mul_sum, Finset.sum_comm, Finset.sum_congr rfl (fun d _ => hd d)]
  rfl

/-- The masked pair sum, grouped by class. -/
theorem refSum_eq (l : ι → κ) (e : κ → ι) (Z : ι → δ → ℝ) : refSum l e Z = kerNum l e Z / 512 := by
  have hp := pairSum l (fun c j => ((sq Z (e c) + sq Z j) - 2 * ∑ d, Z (e c) d * Z j d) / 512)
  unfold refSum kerNum
  rw [show (∑ i, ∑ j, if l i = l j ∧ i ≠ j then refTerm l e Z i j else 0) = _ from hp, Finset.sum_div]
  refine Finset.sum_congr rfl (fun c _ => ?_)
  rw [classSum l e Z c, mul_div_assoc]

/-- The two quotients, as the two programs form them over the extended reals. -/
theorem value_eq (l : ι → κ) (e : κ → ι) (Z : ι → δ → ℝ) (h : Fintype.card κ < Fintype.card ι) :
    Ideal.div ((refSum l e Z : ℝ) : EReal) (((refPairs l : ℕ) : ℝ) : EReal)
      = Ideal.div ((kerNum l e Z : ℝ) : EReal) (((512 : ℝ) : EReal) * ((kerPairs l : ℝ) : EReal)) := by
  have hne : ((refPairs l : ℕ) : ℝ) ≠ 0 := Nat.cast_ne_zero.mpr (refPairs_pos l h).ne'
  have hk : kerPairs l = (refPairs l : ℝ) := kerPairs_eq l
  have hne2 : (512 : ℝ) * kerPairs l ≠ 0 := by
    rw [hk]
    exact mul_ne_zero (by norm_num) hne
  rw [← EReal.coe_mul, Ideal.div_coe hne, Ideal.div_coe hne2, ← EReal.coe_mul, ← EReal.coe_mul,
    EReal.coe_eq_coe_iff, refSum_eq, hk]
  field_simp

end Cert.PairMse

end
-- ==== Proof.Rows.lean ====
/-
  A class id doubles as a row index: class `c < 256` names row `c` of the 8192 rows.
-/
import Mathlib.Data.Fintype.Card

namespace Cert.PairMse

/-- The row a class id names. -/
abbrev anchor : Fin 256 → Fin 8192 := Fin.castLE (by decide)

theorem anchor_val (c : Fin 256) : (anchor c).val = c.val := rfl

theorem card_classes_lt_rows : Fintype.card (Fin 256) < Fintype.card (Fin 8192) := by
  rw [Fintype.card_fin, Fintype.card_fin]; decide

end Cert.PairMse
-- ==== Proof.KerPrefixIdeal.lean ====
/-
  What the region finds in the host-computed arrays, read over the extended reals on finite rows and labels in range:
  each row's sum of squares is the real one, the bf16 indicator matrix is the real indicator of "row i has class p",
  and narrowing `Z` to bf16 changes nothing.
-/
import proofs.«420697_j17214228922603_3_alg».proof.Proof.KerDefs
import proofs.«420697_j17214228922603_3_alg».proof.Proof.Spec
import proofs.«420697_j17214228922603_3_alg».proof.Proof.Rows
import Idealize.ShloMosaic.Lib.ValueIdx
import Idealize.ShloMosaic.Lib.StableHlo.Predicate
import Idealize.ShloMosaic.PureOps.Ideal.Laws

noncomputable section

namespace Cert.KernelIdeal.KVal

open Idealize.ShloMosaic Idealize.ShloMosaic.ValueIdx
open Cert.KernelIdeal Cert.KernelIdeal.Gen Cert.PairMse

/-- A finite sum of reals, seen in the extended reals, is the sum of the terms seen there. -/
private theorem coe_sum {α : Type} (s : Finset α) (f : α → ℝ) :
    ((∑ a ∈ s, f a : ℝ) : EReal) = ∑ a ∈ s, ((f a : ℝ) : EReal) := by
  classical
  induction s using Finset.induction_on with
  | empty => rw [Finset.sum_empty, Finset.sum_empty, EReal.coe_zero]
  | insert a s ha ih => rw [Finset.sum_insert ha, Finset.sum_insert ha, EReal.coe_add, ih]

/-- The sum over the second axis of an [8192 × 512] array from the zero word, at row `i`: the sum of the row. -/
private theorem reduce_rows (y : FVec Ideal S8192x512 .f32) (i : Fin 8192) :
    Host.reduceAdd (F := Ideal) y (constant S_ .f32 0x00000000#32) reducesTo_S8192x512_S8192_d1 h_S_ (ix1 i)
      = ∑ k : Fin 512, y (ix2 i k) := by
  simp only [Host.reduceAdd, Ideal.hostReduceAdd_def]
  rw [Ideal.hostReduceAdd_single reducesTo_S8192x512_S8192_d1 (by decide)]
  rw [show (constant (F := Ideal) S_ .f32 0x00000000#32) (Shape.Idx.first h_S_) = 0 from Ideal.ofBits_zero_f32, zero_add]
  refine Finset.sum_congr rfl fun k _ => ?_
  exact congrArg y (funext fun a => Fin.ext (by match a with | ⟨0, _⟩ => rfl | ⟨1, _⟩ => rfl))

/-- Each row's sum of squares, over the reals. -/
theorem z2_ideal (x0 : FVec Ideal S8192x512 .f32) (Z : Fin 8192 → Fin 512 → ℝ)
    (hZ : ∀ i d, x0 (ix2 i d) = ((Z i d : ℝ) : EReal)) (i : Fin 8192) :
    z2Of (F := Ideal) x0 (ix1 i) = ((sq Z i : ℝ) : EReal) := by
  unfold z2Of
  rw [reduce_rows, Cert.PairMse.sq, coe_sum]
  refine Finset.sum_congr rfl fun d _ => ?_
  rw [mulf_apply, hZ, EReal.coe_mul]

/-- The two spellings of the index (row `p`, column `q`) agree. -/
private theorem ij_eq_ix2 {n m : Nat} (p : Fin n) (q : Fin m) : StableHlo.Predicate.ij p q = ix2 p q := by
  funext a; match a with | ⟨0, _⟩ => rfl | ⟨1, _⟩ => rfl

/-- The two spellings of the rank-1 index at `k` agree. -/
private theorem ofFin_eq_ix1 {n : Nat} (k : Fin n) : Shape.Idx.ofFin k = ix1 k := by
  funext a; match a with | ⟨0, _⟩ => exact Fin.ext rfl

/-- Two words of small values are equal only if the values are. -/
private theorem ofNat_inj_small {a b : ℕ} (ha : a < 256) (hb : b < 256)
    (h : BitVec.ofNat 32 a = BitVec.ofNat 32 b) : a = b := by
  have h' := congrArg BitVec.toNat h
  rw [BitVec.toNat_ofNat, BitVec.toNat_ofNat] at h'
  omega

/-- The indicator matrix, over the reals. -/
theorem oh_ideal (x1 : IVec S8192 32) (l : Fin 8192 → Fin 256)
    (hl : ∀ i, x1 (ix1 i) = BitVec.ofNat 32 (l i).val) (p : Fin 256) (i : Fin 8192) :
    ohOf (F := Ideal) x1 (ix2 p i) = ((oh l p i : ℝ) : EReal) := by
  unfold ohOf
  show (((IntOp.cmpi .eq
      (broadcastInDim S256x8192 ![0, 1] bcast_S1x8192_S256x8192_0_1
        (broadcastInDim S1x8192 ![1] bcast_S8192_S1x8192_1 x1) (ix2 p i))
      (broadcastInDim S256x8192 ![0, 1] bcast_S256x1_S256x8192_0_1
        (broadcastInDim S256x1 ![0] bcast_S256_S256x1_0 (iotaInDim S256 32 0)) (ix2 p i))).toNat : ℝ) : EReal) = _
  rw [← ij_eq_ix2, StableHlo.Predicate.bcast_cols, StableHlo.Predicate.bcast_rows, StableHlo.Predicate.iota_apply,
    ofFin_eq_ix1, hl]
  unfold oh
  by_cases h : l i = p
  · rw [if_pos h, StableHlo.Predicate.cmpi_eq_iff.mpr (by rw [h])]
    simp
  · rw [if_neg h, eq_zero_of_ne_one (fun hc => h (Fin.ext (ofNat_inj_small (l i).isLt p.isLt
      (StableHlo.Predicate.cmpi_eq_iff.mp hc))))]
    simp

/-- Narrowing to bf16 is the identity over the reals. -/
theorem zb_ideal (x0 : FVec Ideal S8192x512 .f32) (i : Fin 8192) (q : Fin 512) :
    zbOf (F := Ideal) x0 (ix2 i q) = x0 (ix2 i q) := by
  rfl

end Cert.KernelIdeal.KVal

end
-- ==== Proof.LibIndexing.lean ====
/-
  Three readings of the host's indexed operations, at any extents and word widths.

  * An integer scatter-add of ones into zeros counts, at each element, the updates that land on it.
  * A scatter along the one axis of a vector, its start indices an [n, 1] column: update `j` lands on element `i`
    exactly when its start index, read signed, is `i`.
  * A gather of whole rows of an [N, D] table by an [n, 1] column of row numbers reads row `p`'s start index signed and
    clamped into the table.
-/
import Idealize.ShloMosaic.PureOps
import Idealize.ShloMosaic.Lib.ValueIdx

noncomputable section

namespace Cert.LibIndexing

open Idealize.ShloMosaic Idealize.ShloMosaic.ValueIdx

/-- A left fold of a step that adds one at the element a position lands on (and does nothing for a position that lands
    nowhere) adds, at each element, the number of positions of the list that land on it. -/
private theorem foldl_add_one {ι κ : Type} [DecidableEq ι] {w : Nat} (g : κ → Option ι)
    (step : (ι → BitVec w) → κ → ι → BitVec w)
    (hsome : ∀ r n i0, g n = some i0 → step r n = fun i' => if i' = i0 then r i0 + 1#w else r i')
    (hnone : ∀ r n, g n = none → step r n = r)
    (L : List κ) (acc : ι → BitVec w) (i : ι) :
    (L.foldl step acc) i = acc i + BitVec.ofNat w (L.countP (fun n => decide (g n = some i))) := by
  induction L generalizing acc with
  | nil => simp
  | cons n L ih =>
    rw [List.foldl_cons, ih, List.countP_cons]
    cases hg : g n with
    | none => rw [hnone _ _ hg]; simp
    | some i0 =>
      rw [hsome _ _ _ hg]
      by_cases hi : i = i0
      · subst hi
        simp only [if_true, decide_true]
        rw [BitVec.add_assoc]
        congr 1
        apply BitVec.eq_of_toNat_eq
        simp [Nat.add_comm]
      · have hne : ¬ (some i0 = some i) := fun h => hi (Option.some.inj h).symm
        simp [hi, hne]

/-- Adding ones into zeros: each element ends at the number of updates landing on it (as a word). -/
theorem scatter_addi_ones {s si u : Shape} {w wi : Nat} (d : ScatterDims s si u) (idx : IVec si wi) (i : s.Idx) :
    Host.scatter d IntOp.addi (fun _ => (0#w : BitVec w)) idx (fun _ => (1#w : BitVec w)) i
      = BitVec.ofNat w (Finset.univ.filter (fun j : u.Idx => d.resultIdx? j idx = some i)).card := by
  unfold Host.scatter
  refine (foldl_add_one (w := w) (fun n => d.resultIdx? (u.rowMajor.symm n) idx) _ ?_ ?_
    (List.finRange u.numel) (fun _ => 0#w) i).trans ?_
  · intro r n i0 h
    simp only [h]
    rfl
  · intro r n h
    simp only [h]
  rw [BitVec.zero_add]
  congr 1
  -- the positions in row-major order are all of them, once each: the count over the list is a cardinality
  have h1 : (List.finRange u.numel).countP (fun n => decide (d.resultIdx? (u.rowMajor.symm n) idx = some i))
      = (Finset.univ.filter (fun n : Fin u.numel => d.resultIdx? (u.rowMajor.symm n) idx = some i)).card := by
    rw [List.countP_eq_length_filter]
    rfl
  rw [h1]
  -- and the row-major numbering is a bijection of the update indices
  exact Finset.card_equiv u.rowMajor.symm (fun n => by simp)

/-- Every coordinate of a rank-1 index built from `j` is `j`. -/
private theorem ix1_val {n : Nat} (j : Fin n) (X : Fin 1) : ((ix1 j : (⟨1, ![n]⟩ : Shape).Idx) X).val = j.val := by
  have hX : X = 0 := Subsingleton.elim _ _
  subst hX; rfl

/-- Where update `j` of a vector scatter lands: on the element its start index names, when that is inside the vector. -/
theorem resultIdx_column {N n wi : Nat} (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1) (idx : IVec ⟨2, ![n, 1]⟩ wi) (j : Fin n) (i : Fin N) :
    d.resultIdx? (ix1 j) idx = some (ix1 i) ↔ (idx (ix2 j (0 : Fin 1))).toInt = (i.val : ℤ) := by
  -- the one operand axis is scattered: its start is the start index of update `j`, read signed
  have hm : (0 : Fin 1) ∈ d.scatterDimsToOperandDims := by rw [hsd]; exact List.mem_singleton.mpr rfl
  have hstart : ∀ a : Fin 1, d.start (ix1 j) idx a = (idx (ix2 j (0 : Fin 1))).toInt := by
    intro a
    have ha : a = 0 := Subsingleton.elim _ _
    subst ha
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      exact ix1_val j _
    | ⟨1, _⟩ =>
      unfold ScatterDims.siIdx
      rw [dif_pos (by rw [hivd])]
      apply Fin.ext
      show List.idxOf (0 : Fin 1) d.scatterDimsToOperandDims = 0
      rw [hsd]; simp
  -- and it is an inserted axis: no window coordinate
  have hwin : ∀ a : Fin 1, d.window (ix1 j) a = 0 := by
    intro a
    have ha : a = 0 := Subsingleton.elim _ _
    subst ha
    unfold ScatterDims.window
    rw [dif_neg]
    rw [ScatterDims.sKept, hiw]
    simp [Shape.kept]
  unfold ScatterDims.resultIdx?
  simp only [hstart, hwin]
  have hi := i.isLt
  split
  · next h =>
    have h0 := h 0
    constructor
    · intro he
      have := congrFun (Option.some.inj he) 0
      have hv := congrArg Fin.val this
      simp only [ix1] at hv
      omega
    · intro he
      congr 1
      funext a
      have ha : a = 0 := Subsingleton.elim _ _
      subst ha
      apply Fin.ext
      show ((idx (ix2 j (0 : Fin 1))).toInt + ((0 : Nat) : ℤ)).toNat = i.val
      omega
  · next h =>
    constructor
    · intro he; exact absurd he (by simp)
    · intro he
      exfalso
      apply h
      intro a
      have ha : a = 0 := Subsingleton.elim _ _
      subst ha
      show 0 ≤ _ + ((0 : Nat) : ℤ) ∧ _ + ((0 : Nat) : ℤ) < ((N : Nat) : ℤ)
      omega

/-- Row `p` of a row gather reads the table's row at the start index, signed and clamped into the table. -/
theorem gather_rows {α : Type} {N D n wi : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, D])
    (x : (⟨2, ![N, D]⟩ : Shape).Idx → α) (idx : IVec ⟨2, ![n, 1]⟩ wi) (p : Fin n) (k : Fin D) (hN : 0 < N) :
    Host.gather d x idx (ix2 p k)
      = x (ix2 ⟨min (idx (ix2 p (0 : Fin 1))).toInt.toNat (N - 1), by omega⟩ k) := by
  unfold Host.gather
  congr 1
  -- no operand axis is a batching axis
  have hb : ∀ a : Fin 2, a ∉ d.operandBatchingDims := by intro a; rw [hob]; exact List.not_mem_nil
  -- the result's batch axes are its axis 0 alone, its offset axes its axis 1 alone
  have hbatch : ∀ X : Fin 2, X ∈ d.batchDims → X = 0 := by
    intro X hX
    rw [GatherDims.batchDims, hoff] at hX
    simp [Shape.kept] at hX
    omega
  have hoffs : ∀ X : Fin 2, X ∈ d.offsetDims → X = 1 := by
    intro X hX
    rw [hoff] at hX
    simpa using hX
  have hp : ∀ X : Fin 2, X = 0 → ((ix2 p k : (⟨2, ![n, D]⟩ : Shape).Idx) X).val = p.val := by
    intro X h; subst h; rfl
  have hk : ∀ X : Fin 2, X = 1 → ((ix2 p k : (⟨2, ![n, D]⟩ : Shape).Idx) X).val = k.val := by
    intro X h; subst h; rfl
  funext a
  apply Fin.ext
  match a with
  | ⟨0, h0⟩ =>
    -- axis 0 is collapsed and start-indexed: the clamped start, nothing added
    have hk0 : (⟨0, h0⟩ : Fin 2) ∉ d.sKept := by rw [GatherDims.mem_sKept, hcoll]; simp
    have hm : (⟨0, h0⟩ : Fin 2) ∈ d.startIndexMap := by rw [hsim]; exact List.mem_singleton.mpr rfl
    have hsl : d.sliceSizes ⟨0, h0⟩ = 1 := by rw [hss]; rfl
    simp only [GatherDims.operandIdx, GatherDims.batchCoord_eq_zero _ _ _ (hb _), GatherDims.offCoord_eq_zero _ _ _ hk0,
      Nat.add_zero, GatherDims.start, dif_pos hm]
    show min (idx _).toInt.toNat (N - d.sliceSizes ⟨0, h0⟩) = min (idx (ix2 p (0 : Fin 1))).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      exact hp _ (hbatch _ (List.getElem_mem _))
    | ⟨1, _⟩ =>
      unfold GatherDims.siIdx
      rw [dif_pos (by rw [hivd])]
      apply Fin.ext
      show List.idxOf (⟨0, h0⟩ : Fin 2) d.startIndexMap = 0
      rw [hsim]; simp
  | ⟨1, h1⟩ =>
    -- axis 1 is kept whole: start 0, the offset coordinate
    have hk1 : (⟨1, h1⟩ : Fin 2) ∈ d.sKept := by rw [GatherDims.mem_sKept, hcoll, hob]; simp
    have hm : (⟨1, h1⟩ : Fin 2) ∉ d.startIndexMap := by rw [hsim]; simp
    simp only [GatherDims.operandIdx, GatherDims.batchCoord_eq_zero _ _ _ (hb _), Nat.add_zero, GatherDims.start,
      dif_neg hm, Nat.zero_add, GatherDims.offCoord, dif_pos hk1]
    exact hk _ (hoffs _ (List.getElem_mem _))

end Cert.LibIndexing

end
-- ==== Proof.KerTailIdeal.lean ====
/-
  The kernel program's host operations read over the extended reals, on finite rows and labels in range.

  With every entry of `Z` a real and every label a class id below 256: the indicator matrix is the real indicator, each
  row's sum of squares is the real one, the integer scatter-add of ones counts each class, the float scatter-add sums the
  rows' squared norms by class, and the closing arithmetic is the grouped numerator over 512 times the grouped count
  of pairs.
-/
import proofs.«420697_j17214228922603_3_alg».proof.Proof.KerDefs
import proofs.«420697_j17214228922603_3_alg».proof.Proof.Spec
import proofs.«420697_j17214228922603_3_alg».proof.Proof.Rows
import proofs.«420697_j17214228922603_3_alg».proof.Proof.LibIndexing
import Idealize.ShloMosaic.Lib.ValueIdx
import Idealize.ShloMosaic.Lib.ValueIdxRank1
import Idealize.ShloMosaic.Lib.StableHlo.Predicate
import Idealize.ShloMosaic.PureOps.Ideal.Laws

noncomputable section

namespace Cert.KernelIdeal.KVal

open Idealize.ShloMosaic Idealize.ShloMosaic.ValueIdx
open Cert.KernelIdeal Cert.KernelIdeal.Gen Cert.PairMse

/-! ### Small words: a class id read signed, compared with zero, clamped from below -/

open Idealize.ShloMosaic.StableHlo.Predicate in
/-- The signed maximum of zero and a small non-negative word is the word. -/
private theorem maxsi_zero_small (n : ℕ) (hn : n < 2 ^ 31) :
    IntOp.maxsi (0#32 : BitVec 32) (BitVec.ofNat 32 n) = BitVec.ofNat 32 n := by
  unfold IntOp.maxsi
  rw [if_neg]
  simp only [BitVec.slt, toInt_ofNat_small n hn, decide_eq_true_eq]
  have h0 : (0#32 : BitVec 32).toInt = 0 := by decide
  rw [h0]; omega

open Idealize.ShloMosaic.StableHlo.Predicate in
/-- A small non-negative word is not below zero. -/
private theorem slt_zero_small (n : ℕ) (hn : n < 2 ^ 31) :
    IntOp.cmpi .slt (BitVec.ofNat 32 n) (0#32 : BitVec 32) = 0#1 := by
  apply eq_zero_of_ne_one
  intro h
  have := (slt_iff_toNat (a := BitVec.ofNat 32 n) (b := 0#32) (by simp [BitVec.toNat_ofNat]; omega) (by decide)).mp h
  simp at this

/-! ### Sums and counts over a vector's index set, by the coordinate -/

/-- The coordinate of a vector's index names the index. -/
private theorem ix1_idxEquiv1 {n : ℕ} (i : (⟨1, ![n]⟩ : Shape).Idx) : ix1 (idxEquiv1 i) = i := idxEquiv1.left_inv i

/-- A count over the indices of a vector is the count over the coordinate. -/
private theorem card_filter_idx1 {n : ℕ} (P : (⟨1, ![n]⟩ : Shape).Idx → Prop) [DecidablePred P] :
    (Finset.univ.filter P).card = (Finset.univ.filter (fun j : Fin n => P (ix1 j))).card := by
  refine Finset.card_equiv idxEquiv1 fun i => ?_
  simp only [Finset.mem_filter, Finset.mem_univ, true_and]
  rw [ix1_idxEquiv1]

/-- A filtered sum over the indices of a vector is the filtered sum over the coordinate. -/
private theorem sum_filter_idx1 {M : Type} [AddCommMonoid M] {n : ℕ} (P : (⟨1, ![n]⟩ : Shape).Idx → Prop) [DecidablePred P]
    (f : (⟨1, ![n]⟩ : Shape).Idx → M) :
    ∑ i ∈ Finset.univ.filter P, f i = ∑ j ∈ Finset.univ.filter (fun j : Fin n => P (ix1 j)), f (ix1 j) := by
  refine Finset.sum_equiv idxEquiv1 (fun i => ?_) (fun i _ => ?_)
  · simp only [Finset.mem_filter, Finset.mem_univ, true_and]
    rw [ix1_idxEquiv1]
  · rw [ix1_idxEquiv1]

/-- A finite sum of real coercions is the coercion of the sum. -/
private theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-! ### The label words, as the program rewrites them before each scatter -/

/-- Clamping a class id from below by zero leaves it. -/
private theorem maxsi_apply (x1 : IVec S8192 32) (j : Fin 8192) (n : ℕ) (hn : n < 2 ^ 31)
    (hx : x1 (ix1 j) = BitVec.ofNat 32 n) :
    maxsi (broadcastInDim S8192 ![] bcast_S_S8192 (id (constantI S_ 32 0#32))) x1 (ix1 j) = BitVec.ofNat 32 n := by
  show IntOp.maxsi 0#32 (x1 (ix1 j)) = _
  rw [hx, maxsi_zero_small n hn]

/-- The wrap of a negative index does not fire on a class id. -/
private theorem select_nonneg (w y : IVec S8192 32) (j : Fin 8192) (n : ℕ) (hn : n < 2 ^ 31)
    (hw : w (ix1 j) = BitVec.ofNat 32 n) :
    select (cmpi .slt w (broadcastInDim S8192 ![] bcast_S_S8192 (constantI S_ 32 0#32))) y w (ix1 j)
      = BitVec.ofNat 32 n := by
  show Scalar.select (IntOp.cmpi .slt (w (ix1 j)) 0#32) (y (ix1 j)) (w (ix1 j)) = _
  rw [hw, slt_zero_small n hn, select_zero]

/-- A vector kept as a column reads, at row `j`, the vector at `j`. -/
private theorem col_apply (w : IVec S8192 32) (j : Fin 8192) :
    broadcastInDim S8192x1 ![0] bcast_S8192_S8192x1_0 w (ix2 j (0 : Fin 1)) = w (ix1 j) := by
  unfold broadcastInDim
  refine congrArg w (funext fun a => ?_)
  match a with
  | ⟨0, _⟩ => rfl

open Idealize.ShloMosaic.StableHlo.Predicate in
/-- Update `j` of either scatter lands on element `c` exactly when row `j` is of class `c`. -/
private theorem lands_iff (w : IVec S8192 32) (l : Fin 8192 → Fin 256)
    (hw : ∀ j, w (ix1 j) = BitVec.ofNat 32 (l j).val) (j : Fin 8192) (c : Fin 256) :
    scatter_S256_S8192x1_S8192_n_0_0_1.resultIdx? (ix1 j) (broadcastInDim S8192x1 ![0] bcast_S8192_S8192x1_0 w)
      = some (ix1 c) ↔ l j = c := by
  rw [Cert.LibIndexing.resultIdx_column _ rfl rfl rfl rfl, col_apply, hw,
    toInt_ofNat_small _ (by have := (l j).isLt; omega)]
  constructor
  · intro h; exact Fin.ext (by exact_mod_cast h)
  · intro h; rw [h]

/-! ### The class sizes: the integer scatter-add of ones, converted -/

/-- Element `c` of the scatter-add of ones is the size of class `c`, as a word. -/
private theorem count_apply (w : IVec S8192 32) (l : Fin 8192 → Fin 256)
    (hw : ∀ j, w (ix1 j) = BitVec.ofNat 32 (l j).val) (c : Fin 256) :
    Host.scatter scatter_S256_S8192x1_S8192_n_0_0_1 IntOp.addi
        (broadcastInDim S256 ![] bcast_S_S256 (constantI S_ 32 0#32))
        (broadcastInDim S8192x1 ![0] bcast_S8192_S8192x1_0 w)
        (broadcastInDim S8192 ![] bcast_S_S8192 (constantI S_ 32 1#32)) (ix1 c)
      = BitVec.ofNat 32 (Finset.univ.filter (fun j : Fin 8192 => l j = c)).card := by
  have h0 : (broadcastInDim S256 ![] bcast_S_S256 (constantI S_ 32 0#32) : IVec S256 32) = fun _ => (0#32 : BitVec 32) := rfl
  have h1 : (broadcastInDim S8192 ![] bcast_S_S8192 (constantI S_ 32 1#32) : IVec S8192 32) = fun _ => (1#32 : BitVec 32) := rfl
  rw [h0, h1, Cert.LibIndexing.scatter_addi_ones]
  congr 1
  rw [card_filter_idx1]
  exact congrArg Finset.card (Finset.filter_congr fun j _ => lands_iff w l hw j c)

open Idealize.ShloMosaic.StableHlo.Predicate in
/-- Converted to a float, it is the real size of the class. -/
private theorem cntE (w : IVec S8192 32) (l : Fin 8192 → Fin 256)
    (hw : ∀ j, w (ix1 j) = BitVec.ofNat 32 (l j).val) (c : Fin 256) :
    (sitofp .f32 (Host.scatter scatter_S256_S8192x1_S8192_n_0_0_1 IntOp.addi
        (broadcastInDim S256 ![] bcast_S_S256 (constantI S_ 32 0#32))
        (broadcastInDim S8192x1 ![0] bcast_S8192_S8192x1_0 w)
        (broadcastInDim S8192 ![] bcast_S_S8192 (constantI S_ 32 1#32))) : FVec Ideal S256 .f32) (ix1 c)
      = ((cnt l c : ℝ) : EReal) := by
  rw [sitofp_apply, count_apply w l hw c]
  show (((BitVec.ofNat 32 (Finset.univ.filter (fun j : Fin 8192 => l j = c)).card).toInt : ℝ) : EReal) = _
  have hle : (Finset.univ.filter (fun j : Fin 8192 => l j = c)).card ≤ 8192 := by
    refine (Finset.card_le_univ _).trans ?_
    rw [Fintype.card_fin]
  rw [toInt_ofNat_small _ (by omega), Int.cast_natCast]
  rfl

/-! ### The squared norms summed by class: the float scatter-add -/

/-- Element `c` of the float scatter-add of the squared norms is their sum over class `c`. -/
private theorem sqsumE (w : IVec S8192 32) (z2 : FVec Ideal S8192 .f32) (Z : Fin 8192 → Fin 512 → ℝ)
    (l : Fin 8192 → Fin 256) (hw : ∀ j, w (ix1 j) = BitVec.ofNat 32 (l j).val)
    (hz2 : ∀ i, z2 (ix1 i) = ((sq Z i : ℝ) : EReal)) (c : Fin 256) :
    (Host.scatterAdd scatter_S256_S8192x1_S8192_n_0_0_1
        (broadcastInDim S256 ![] bcast_S_S256 (constant (F := Ideal) S_ .f32 0x00000000#32))
        (broadcastInDim S8192x1 ![0] bcast_S8192_S8192x1_0 w) z2 : FVec Ideal S256 .f32) (ix1 c)
      = ((sqsum l Z c : ℝ) : EReal) := by
  show Ideal.hostScatterAdd scatter_S256_S8192x1_S8192_n_0_0_1
      (broadcastInDim S256 ![] bcast_S_S256 (constant (F := Ideal) S_ .f32 0x00000000#32))
      (broadcastInDim S8192x1 ![0] bcast_S8192_S8192x1_0 w) z2 (ix1 c) = _
  unfold Ideal.hostScatterAdd
  have hf : Finset.univ.filter (fun j : Fin 8192 =>
        scatter_S256_S8192x1_S8192_n_0_0_1.resultIdx? (ix1 j) (broadcastInDim S8192x1 ![0] bcast_S8192_S8192x1_0 w)
          = some (ix1 c))
      = Finset.univ.filter (fun j : Fin 8192 => l j = c) :=
    Finset.filter_congr fun j _ => lands_iff w l hw j c
  rw [sum_filter_idx1, hf, Finset.sum_congr rfl (fun j _ => hz2 j), coe_sum]
  show Ideal.ofBits .f32 0x00000000#32 + _ = _
  rw [Ideal.ofBits_zero_f32, zero_add]
  rfl

/-! ### The anchors: the first 256 rows -/

/-- Element `c` of the first 256 squared norms is the anchor's. -/
private theorem anchorNormE (z2 : FVec Ideal S8192 .f32) (c : Fin 256) :
    extractStridedSlice S256 ![0] z2 slices_S8192_S256_0 (ix1 c) = z2 (ix1 (anchor c)) := by
  unfold extractStridedSlice
  refine congrArg z2 (funext fun a => ?_)
  match a with
  | ⟨0, _⟩ => exact Fin.ext (Nat.zero_add _)

/-- Element `(c, d)` of the first 256 rows is the anchor's coordinate `d`. -/
private theorem anchorRowE (x0 : FVec Ideal S8192x512 .f32) (c : Fin 256) (d : Fin 512) :
    extractStridedSlice S256x512 ![0, 0] x0 slices_S8192x512_S256x512_0_0 (ix2 c d) = x0 (ix2 (anchor c) d) := by
  unfold extractStridedSlice
  refine congrArg x0 (funext fun a => ?_)
  match a with
  | ⟨0, _⟩ => exact Fin.ext (Nat.zero_add _)
  | ⟨1, _⟩ => exact Fin.ext (Nat.zero_add _)

/-! ### The anchors against the class sums -/

/-- Element `c` of the row sums of the product is the anchor of `c` against the sum of the rows of class `c`. -/
private theorem dotE (x0 : FVec Ideal S8192x512 .f32) (sz : FVec Ideal S256x512 .f32) (Z : Fin 8192 → Fin 512 → ℝ)
    (l : Fin 8192 → Fin 256) (hZ : ∀ i d, x0 (ix2 i d) = ((Z i d : ℝ) : EReal))
    (hsz : ∀ p q, sz (ix2 p q) = ((segsum l Z p q : ℝ) : EReal)) (c : Fin 256) :
    (Host.reduceAdd (mulf (extractStridedSlice S256x512 ![0, 0] x0 slices_S8192x512_S256x512_0_0) sz)
        (constant (F := Ideal) S_ .f32 0x00000000#32) reducesTo_S256x512_S256_d1 h_S_ : FVec Ideal S256 .f32) (ix1 c)
      = ((∑ d, Z (anchor c) d * segsum l Z c d : ℝ) : EReal) := by
  have hR : S256x512.Reduces [1] S256 := by decide
  show Ideal.hostReduceAdd reducesTo_S256x512_S256_d1
      (mulf (extractStridedSlice S256x512 ![0, 0] x0 slices_S8192x512_S256x512_0_0) sz)
      (Ideal.ofBits .f32 0x00000000#32) (ix1 c) = _
  rw [Ideal.hostReduceAdd_single reducesTo_S256x512_S256_d1 hR, Ideal.ofBits_zero_f32, zero_add]
  have hlift : ∀ k : Fin 512, hR.lift (ix1 c) k = ix2 c k := fun k => funext fun a => by
    match a with
    | ⟨0, _⟩ => exact Fin.ext rfl
    | ⟨1, _⟩ => exact Fin.ext rfl
  have hterm : ∀ k : Fin 512,
      mulf (extractStridedSlice S256x512 ![0, 0] x0 slices_S8192x512_S256x512_0_0) sz (hR.lift (ix1 c) k)
        = ((Z (anchor c) k * segsum l Z c k : ℝ) : EReal) := by
    intro k
    rw [hlift k, mulf_apply, anchorRowE, hZ, hsz, ← EReal.coe_mul]
  exact (Finset.sum_congr rfl fun k _ => hterm k).trans (coe_sum _ _)

/-! ### The literals -/

private theorem ofBits_one : Ideal.ofBits .f32 0x3F800000#32 = ((1 : ℝ) : EReal) := by
  simp [Ideal.ofBits, Ideal.ieee, -EReal.coe_mul]; norm_num

private theorem ofBits_two : Ideal.ofBits .f32 0x40000000#32 = ((2 : ℝ) : EReal) := by
  simp [Ideal.ofBits, Ideal.ieee, -EReal.coe_mul]; norm_num

private theorem ofBits_512 : Ideal.ofBits .f32 0x44000000#32 = ((512 : ℝ) : EReal) := by
  simp [Ideal.ofBits, Ideal.ieee, -EReal.coe_mul]; norm_num

/-! ### The closing sums over the classes -/

/-- The sum of a vector of 256 reals into a scalar. -/
private theorem reduce256 (v : FVec Ideal S256 .f32) (f : Fin 256 → ℝ) (hv : ∀ c, v (ix1 c) = ((f c : ℝ) : EReal))
    (j : S_.Idx) :
    (Host.reduceAdd v (constant (F := Ideal) S_ .f32 0x00000000#32) reducesTo_S256_S_d0 h_S_ : FVec Ideal S_ .f32) j
      = ((∑ c, f c : ℝ) : EReal) := by
  show Ideal.hostReduceAdd reducesTo_S256_S_d0 v (Ideal.ofBits .f32 0x00000000#32) j = _
  rw [Ideal.hostReduceAdd_total reducesTo_S256_S_d0 (fun b => b.elim0), Ideal.ofBits_zero_f32, zero_add,
    ← Equiv.sum_comp (idxEquiv1 (n := 256)).symm v]
  exact (Finset.sum_congr rfl fun k _ => hv k).trans (coe_sum _ _)

/-- The closing arithmetic over any four vectors of reals: the grouped numerator over 512 times the grouped count. -/
private theorem tail_core (v21 v29 v30 v33 : FVec Ideal S256 .f32) (n sqa sqs dot : Fin 256 → ℝ)
    (h21 : ∀ c, v21 (ix1 c) = ((n c : ℝ) : EReal)) (h29 : ∀ c, v29 (ix1 c) = ((sqs c : ℝ) : EReal))
    (h30 : ∀ c, v30 (ix1 c) = ((sqa c : ℝ) : EReal)) (h33 : ∀ c, v33 (ix1 c) = ((dot c : ℝ) : EReal)) :
    Host.divf
        (Host.reduceAdd
          (mulf (subf v21 (broadcastInDim S256 ![] bcast_S_S256 (constant S_ .f32 0x3F800000#32)))
            (subf (addf (mulf v21 v30) v29)
              (mulf (broadcastInDim S256 ![] bcast_S_S256 (constant S_ .f32 0x40000000#32)) v33)))
          (constant S_ .f32 0x00000000#32) reducesTo_S256_S_d0 h_S_)
        (mulf (constant S_ .f32 0x44000000#32)
          (Host.reduceAdd
            (mulf v21 (subf v21 (broadcastInDim S256 ![] bcast_S_S256 (constant S_ .f32 0x3F800000#32))))
            (constant S_ .f32 0x00000000#32) reducesTo_S256_S_d0 h_S_))
      = fun _ => Ideal.div ((∑ c, (n c - 1) * ((n c * sqa c + sqs c) - 2 * dot c) : ℝ) : EReal)
          (((512 : ℝ) : EReal) * ((∑ c, n c * (n c - 1) : ℝ) : EReal)) := by
  funext j
  have hnum : ∀ c : Fin 256,
      mulf (subf v21 (broadcastInDim S256 ![] bcast_S_S256 (constant S_ .f32 0x3F800000#32)))
          (subf (addf (mulf v21 v30) v29)
            (mulf (broadcastInDim S256 ![] bcast_S_S256 (constant S_ .f32 0x40000000#32)) v33)) (ix1 c)
        = (((n c - 1) * ((n c * sqa c + sqs c) - 2 * dot c) : ℝ) : EReal) := by
    intro c
    show (v21 (ix1 c) - Ideal.ofBits .f32 0x3F800000#32)
        * ((v21 (ix1 c) * v30 (ix1 c) + v29 (ix1 c)) - Ideal.ofBits .f32 0x40000000#32 * v33 (ix1 c)) = _
    rw [h21, h29, h30, h33, ofBits_one, ofBits_two]
    simp only [EReal.coe_mul, EReal.coe_sub, EReal.coe_add]
  have hden : ∀ c : Fin 256,
      mulf v21 (subf v21 (broadcastInDim S256 ![] bcast_S_S256 (constant S_ .f32 0x3F800000#32))) (ix1 c)
        = ((n c * (n c - 1) : ℝ) : EReal) := by
    intro c
    show v21 (ix1 c) * (v21 (ix1 c) - Ideal.ofBits .f32 0x3F800000#32) = _
    rw [h21, ofBits_one]
    simp only [EReal.coe_mul, EReal.coe_sub]
  show Ideal.div (Host.reduceAdd _ (constant (F := Ideal) S_ .f32 0x00000000#32) reducesTo_S256_S_d0 h_S_ j)
      (Ideal.ofBits .f32 0x44000000#32 * Host.reduceAdd _ (constant (F := Ideal) S_ .f32 0x00000000#32) reducesTo_S256_S_d0 h_S_ j) = _
  rw [reduce256 _ _ hnum j, reduce256 _ _ hden j, ofBits_512]

/-- The host operations after the region: the grouped numerator over 512 times the grouped count of pairs. -/
theorem tail_ideal (x0 : FVec Ideal S8192x512 .f32) (x1 : IVec S8192 32) (z2 : FVec Ideal S8192 .f32)
    (sz : FVec Ideal S256x512 .f32) (Z : Fin 8192 → Fin 512 → ℝ) (l : Fin 8192 → Fin 256)
    (hZ : ∀ i d, x0 (ix2 i d) = ((Z i d : ℝ) : EReal))
    (hl : ∀ i, x1 (ix1 i) = BitVec.ofNat 32 (l i).val)
    (hz2 : ∀ i, z2 (ix1 i) = ((sq Z i : ℝ) : EReal))
    (hsz : ∀ p q, sz (ix2 p q) = ((segsum l Z p q : ℝ) : EReal)) :
    tailOf (F := Ideal) x0 x1 z2 sz
      = fun _ => Ideal.div ((kerNum l anchor Z : ℝ) : EReal) (((512 : ℝ) : EReal) * ((kerPairs l : ℝ) : EReal)) := by
  have hsmall : ∀ j, (l j).val < 2 ^ 31 := fun j => by have := (l j).isLt; omega
  -- the labels after the clamp from below, and after each wrap of a negative index: unchanged
  have h12 : ∀ j, maxsi (broadcastInDim S8192 ![] bcast_S_S8192 (id (constantI S_ 32 0#32))) x1 (ix1 j)
      = BitVec.ofNat 32 (l j).val := fun j => maxsi_apply x1 j _ (hsmall j) (hl j)
  have h17 := fun j => select_nonneg _
    (addi (maxsi (broadcastInDim S8192 ![] bcast_S_S8192 (id (constantI S_ 32 0#32))) x1)
      (broadcastInDim S8192 ![] bcast_S_S8192 (constantI S_ 32 256#32))) j _ (hsmall j) (h12 j)
  have h27 := fun j => select_nonneg x1
    (addi x1 (broadcastInDim S8192 ![] bcast_S_S8192 (constantI S_ 32 256#32))) j _ (hsmall j) (hl j)
  have key := tail_core _ _ _ _ (cnt l) (fun c => sq Z (anchor c)) (sqsum l Z)
    (fun c => ∑ d, Z (anchor c) d * segsum l Z c d)
    (cntE _ l h17) (sqsumE _ z2 Z l h27 hz2) (fun c => (anchorNormE z2 c).trans (hz2 (anchor c)))
    (dotE x0 sz Z l hZ hsz)
  exact key

end Cert.KernelIdeal.KVal

end
-- ==== Proof.KerRun.lean ====
/-
  The kernel program's run, read: every execution ends with the scalar result at `kerOut` — the host operations after the
  region applied to the arguments, to the rows' sums of squares and to the region's accumulated block — and with the two
  arguments unchanged. And over the extended reals, on finite rows and labels in range, that result is the grouped
  numerator over 512 times the grouped number of pairs.
-/
import proofs.«420697_j17214228922603_3_alg».proof.Proof.KerFinal
import proofs.«420697_j17214228922603_3_alg».proof.Proof.KerHost
import proofs.«420697_j17214228922603_3_alg».proof.Proof.KerSegIdeal
import proofs.«420697_j17214228922603_3_alg».proof.Proof.KerPrefixIdeal
import proofs.«420697_j17214228922603_3_alg».proof.Proof.KerTailIdeal

noncomputable section

namespace Cert.KernelIdeal.KVal

open Idealize.ShloMosaic Idealize.ShloMosaic.TcCoe Idealize.SL.Sem Idealize.ShloMosaic.ValueIdx
open Idealize.ShloMosaic.Pipeline (Dat)
open Cert.KernelIdeal Cert.KernelIdeal.Gen Cert.PairMse

section AnyInstance

variable {F : FTy → Type} [FloatOps F]
variable (m : (ℓ : Loc nD τ sig) → Buf (Elt F) ℓ) (ρ : Dev nD → PrngReg)

/-- The run: the result buffer ends at `kerOut`, the arguments as launched. -/
theorem run : θ_run defs (onTc (τ := τ) (main (F := F))) ⟨m, fun _ => 0, ρ⟩ fun r => ∀ c : Dev nD,
      r.2.mem ((c.tc : Thread nD τ).loc main_v46) = kerOut m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v46 (Pipeline.mem_restRefs_of main_v46 (by decide) (by decide))).trans (tail_eq m c (result m c) (final m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end AnyInstance

section AtIdeal

variable (m : (ℓ : Loc nD τ sig) → Buf (Elt Ideal) ℓ)

/-- The region's result at (p, q), on finite rows and labels in range: the sum of the rows of class `p`, coordinate `q`. -/
theorem seg_ideal (c : Dev nD) (Z : Fin 8192 → Fin 512 → ℝ) (l : Fin 8192 → Fin 256)
    (hZ : ∀ i d, (m ((c.tc : Thread nD τ).loc main_arg0) : S8192x512.Idx → EReal) (ix2 i d) = ((Z i d : ℝ) : EReal))
    (hl : ∀ i, (m ((c.tc : Thread nD τ).loc main_arg1) : S8192.Idx → BitVec 32) (ix1 i) = BitVec.ofNat 32 (l i).val)
    (p : Fin 256) (q : Fin 512) :
    chain m c 3 three_lt (ix2 p q) = ((segsum l Z p q : ℝ) : EReal) := by
  rw [chain_apply]
  unfold ohArr zbArr
  rw [V_v8, V_v9]
  unfold segsum
  have hs : ∀ (s : Finset (Fin 8192)) (g : Fin 8192 → ℝ), ((∑ i ∈ s, g i : ℝ) : EReal) = ∑ i ∈ s, ((g i : ℝ) : EReal) := by
    intro s g
    induction s using Finset.induction_on with
    | empty => simp
    | insert a s ha ih => rw [Finset.sum_insert ha, Finset.sum_insert ha, EReal.coe_add, ih]
  rw [hs]
  refine Finset.sum_congr rfl fun i _ => ?_
  rw [oh_ideal _ l hl, zb_ideal, hZ, EReal.coe_mul]

/-- The kernel program's result, on finite rows and labels in range. -/
theorem kerOut_ideal (c : Dev nD) (Z : Fin 8192 → Fin 512 → ℝ) (l : Fin 8192 → Fin 256)
    (hZ : ∀ i d, (m ((c.tc : Thread nD τ).loc main_arg0) : S8192x512.Idx → EReal) (ix2 i d) = ((Z i d : ℝ) : EReal))
    (hl : ∀ i, (m ((c.tc : Thread nD τ).loc main_arg1) : S8192.Idx → BitVec 32) (ix1 i) = BitVec.ofNat 32 (l i).val) :
    kerOut m c
      = fun _ => Ideal.div ((kerNum l anchor Z : ℝ) : EReal) (((512 : ℝ) : EReal) * ((kerPairs l : ℝ) : EReal)) :=
  tail_ideal _ _ _ _ Z l hZ hl (fun i => z2_ideal _ Z hZ i) (fun p q => seg_ideal m c Z l hZ hl p q)

end AtIdeal

end Cert.KernelIdeal.KVal

end
-- ==== Proof.RefIdeal.lean ====
/-
  The reference program read over the extended reals, on finite rows and labels in range.

  With every entry of `Z` a real and every label a class id below 256 (so the gather's negative-index wrap and its
  clamp do nothing and row `i`'s anchor is the row its label names): each masked entry of the [8192, 8192] matrix is
  the real summand of the pair, the integer sum of the widened mask is the number of ordered pairs, and the result is
  the masked sum over that number.
-/
import proofs.«420697_j17214228922603_3_alg».proof.Proof.Gen.ReferenceIdeal.Read
import proofs.«420697_j17214228922603_3_alg».proof.Proof.Spec
import proofs.«420697_j17214228922603_3_alg».proof.Proof.Rows
import proofs.«420697_j17214228922603_3_alg».proof.Proof.LibIndexing
import Idealize.ShloMosaic.Lib.ValueIdx
import Idealize.ShloMosaic.Lib.StableHlo.Predicate
import Idealize.ShloMosaic.Lib.IndicatorCount
import Idealize.ShloMosaic.PureOps.Ideal.Laws

noncomputable section

namespace Cert.ReferenceIdeal.RefVal

open Idealize.ShloMosaic Idealize.ShloMosaic.ValueIdx
open Cert.ReferenceIdeal Cert.ReferenceIdeal.Gen Cert.PairMse

/-- The word of 2. -/
private theorem lit2 : Ideal.ofBits .f32 0x40000000#32 = ((2 : ℝ) : EReal) := by
  simp [Ideal.ofBits, Ideal.ieee, -EReal.coe_mul]; norm_num

/-- The word of 512. -/
private theorem lit512 : Ideal.ofBits .f32 0x44000000#32 = ((512 : ℝ) : EReal) := by
  simp [Ideal.ofBits, Ideal.ieee, -EReal.coe_mul]; norm_num

/-- A finite sum of reals, coerced, is the sum of the coercions. -/
private theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- Row `i` of the [8192, 1] column of start indices sits at row `i` of the label vector. -/
private theorem idx5 (i : Fin 8192) : Read.idx_main_v5 (ix2 i (0 : Fin 1)) = ix1 i := by
  funext a; match a with | ⟨0, _⟩ => rfl

/-- A label below 256 is not negative, so the wrap of negative indices leaves it alone. -/
private theorem labelE (x1 : IVec S8192 32) (l : Fin 8192 → Fin 256)
    (hl : ∀ i, x1 (ix1 i) = BitVec.ofNat 32 (l i).val) (i : Fin 8192) :
    Read.val_main_v4 (F := Ideal) x1 (ix1 i) = BitVec.ofNat 32 (l i).val := by
  rw [Read.val_main_v4_apply, Read.val_main_v1_apply, Read.val_main_v0_apply, Read.val_main_c_apply, hl]
  have hlt := (l i).isLt
  have hn : ¬ IntOp.cmpi .slt (BitVec.ofNat 32 (l i).val) 0#32 = 1#1 := by
    rw [StableHlo.Predicate.slt_iff_toNat (by simp [BitVec.toNat_ofNat]; omega) (by decide)]
    simp
  exact if_neg hn

/-- The gathered row `i` is the row its label names. -/
private theorem gatherE (x0 : FVec Ideal S8192x512 .f32) (x1 : IVec S8192 32) (Z : Fin 8192 → Fin 512 → ℝ)
    (l : Fin 8192 → Fin 256)
    (hZ : ∀ i d, x0 (ix2 i d) = ((Z i d : ℝ) : EReal))
    (hl : ∀ i, x1 (ix1 i) = BitVec.ofNat 32 (l i).val) (i : Fin 8192) (k : Fin 512) :
    Read.val_main_v6 (F := Ideal) x0 x1 (ix2 i k) = ((Z (anchor (l i)) k : ℝ) : EReal) := by
  unfold Read.val_main_v6
  rw [Cert.LibIndexing.gather_rows gather_S8192x512_S8192x1_S8192x512_1_0_n_n_0_1_1512 rfl rfl rfl rfl rfl rfl rfl
    x0 _ i k (by decide), ← hZ]
  refine congrArg x0 (congrArg (fun p : Fin 8192 => ix2 p k) (Fin.ext ?_))
  show min (Read.val_main_v5 (F := Ideal) x1 (ix2 i (0 : Fin 1))).toInt.toNat (8192 - 1) = (anchor (l i)).val
  have hlt := (l i).isLt
  rw [Read.val_main_v5_apply, idx5, labelE x1 l hl i, StableHlo.Predicate.toInt_ofNat_small _ (by omega), anchor_val]
  simp only [Int.toNat_natCast]
  omega

private theorem idx8 (i : Fin 8192) (k : Fin 512) : Read.idx_main_v8 (ix1 i) k = ix2 i k := by
  funext a; match a with | ⟨0, _⟩ => rfl | ⟨1, _⟩ => rfl

private theorem idx10 (i : Fin 8192) (k : Fin 512) : Read.idx_main_v10 (ix1 i) k = ix2 i k := by
  funext a; match a with | ⟨0, _⟩ => rfl | ⟨1, _⟩ => rfl

/-- The squared norm of the gathered row `i`: that of the row its label names. -/
private theorem a2row (x0 : FVec Ideal S8192x512 .f32) (x1 : IVec S8192 32) (Z : Fin 8192 → Fin 512 → ℝ)
    (l : Fin 8192 → Fin 256)
    (hZ : ∀ i d, x0 (ix2 i d) = ((Z i d : ℝ) : EReal))
    (hl : ∀ i, x1 (ix1 i) = BitVec.ofNat 32 (l i).val) (i : Fin 8192) :
    Read.val_main_v8 (F := Ideal) x0 x1 (ix1 i) = ((Cert.PairMse.sq Z (anchor (l i)) : ℝ) : EReal) := by
  rw [Read.val_main_v8_apply, Read.val_main_cst_apply, Ideal.ofBits_def, Ideal.ofBits_zero_f32, zero_add]
  unfold Cert.PairMse.sq
  rw [coe_sum]
  refine Finset.sum_congr rfl fun k _ => ?_
  rw [idx8, Read.val_main_v7_apply, gatherE x0 x1 Z l hZ hl, Ideal.mulf_def, EReal.coe_mul]

/-- The squared norm of row `j` of the table. -/
private theorem z2row (x0 : FVec Ideal S8192x512 .f32) (Z : Fin 8192 → Fin 512 → ℝ)
    (hZ : ∀ i d, x0 (ix2 i d) = ((Z i d : ℝ) : EReal)) (j : Fin 8192) :
    Read.val_main_v10 (F := Ideal) x0 (ix1 j) = ((Cert.PairMse.sq Z j : ℝ) : EReal) := by
  rw [Read.val_main_v10_apply, Read.val_main_cst_1_apply, Ideal.ofBits_def, Ideal.ofBits_zero_f32, zero_add]
  unfold Cert.PairMse.sq
  rw [coe_sum]
  refine Finset.sum_congr rfl fun k _ => ?_
  rw [idx10, Read.val_main_v9_apply, hZ, Ideal.mulf_def, EReal.coe_mul]

private theorem idx13 (i j : Fin 8192) : Read.idx_main_v11 (Read.idx_main_v13 (ix2 i j)) = ix1 i := by
  funext a; match a with | ⟨0, _⟩ => rfl

private theorem idx14 (i j : Fin 8192) : Read.idx_main_v12 (Read.idx_main_v14 (ix2 i j)) = ix1 j := by
  funext a; match a with | ⟨0, _⟩ => rfl

private theorem lidx17 (i j : Fin 8192) (k : Fin 512) : Read.lidx_main_v17 (ix2 i j) k = ix2 i k := by
  funext a; match a with | ⟨0, _⟩ => rfl | ⟨1, _⟩ => rfl

private theorem ridx17 (i j : Fin 8192) (k : Fin 512) :
    Read.idx_main_v16 (Read.ridx_main_v17 (ix2 i j) k) = ix2 j k := by
  funext a; match a with | ⟨0, _⟩ => rfl | ⟨1, _⟩ => rfl

/-- The product of the gathered rows with the transposed table, at `(i, j)`: the dot product of the row the label
of `i` names with row `j`. -/
private theorem dotE (x0 : FVec Ideal S8192x512 .f32) (x1 : IVec S8192 32) (Z : Fin 8192 → Fin 512 → ℝ)
    (l : Fin 8192 → Fin 256)
    (hZ : ∀ i d, x0 (ix2 i d) = ((Z i d : ℝ) : EReal))
    (hl : ∀ i, x1 (ix1 i) = BitVec.ofNat 32 (l i).val) (i j : Fin 8192) :
    Read.val_main_v17 (F := Ideal) x0 x1 (ix2 i j) = ((∑ d, Z (anchor (l i)) d * Z j d : ℝ) : EReal) := by
  rw [Read.val_main_v17_apply, coe_sum]
  refine Finset.sum_congr rfl fun k _ => ?_
  rw [lidx17, gatherE x0 x1 Z l hZ hl, Read.val_main_v16_apply, ridx17, hZ, EReal.coe_mul]

/-- The quotient at `(i, j)`: the summand of the pair. -/
private theorem termE (x0 : FVec Ideal S8192x512 .f32) (x1 : IVec S8192 32) (Z : Fin 8192 → Fin 512 → ℝ)
    (l : Fin 8192 → Fin 256)
    (hZ : ∀ i d, x0 (ix2 i d) = ((Z i d : ℝ) : EReal))
    (hl : ∀ i, x1 (ix1 i) = BitVec.ofNat 32 (l i).val) (i j : Fin 8192) :
    Read.val_main_v22 (F := Ideal) x0 x1 (ix2 i j) = ((refTerm l anchor Z i j : ℝ) : EReal) := by
  rw [Read.val_main_v22_apply, Read.val_main_v21_apply, Read.val_main_cst_3_apply, Read.val_main_v20_apply,
    Read.val_main_v15_apply, Read.val_main_v19_apply, Read.val_main_v18_apply, Read.val_main_cst_2_apply,
    Read.val_main_v13_apply, Read.val_main_v11_apply, idx13, a2row x0 x1 Z l hZ hl,
    Read.val_main_v14_apply, Read.val_main_v12_apply, idx14, z2row x0 Z hZ, dotE x0 x1 Z l hZ hl,
    Ideal.ofBits_def, Ideal.ofBits_def, lit2, lit512, Ideal.hostDivf_def, Ideal.subf_def, Ideal.addf_def,
    Ideal.mulf_def, Ideal.div_coe (by norm_num : (512 : ℝ) ≠ 0),
    ← EReal.coe_mul, ← EReal.coe_add, ← EReal.coe_sub, ← EReal.coe_mul]
  unfold refTerm
  rw [mul_one_div]

private theorem idx26 (i j : Fin 8192) : Read.idx_main_v24 (Read.idx_main_v26 (ix2 i j)) = ix1 i := by
  funext a; match a with | ⟨0, _⟩ => rfl

private theorem idx27 (i j : Fin 8192) : Read.idx_main_v25 (Read.idx_main_v27 (ix2 i j)) = ix1 j := by
  funext a; match a with | ⟨0, _⟩ => rfl

private theorem idx31 (i j : Fin 8192) : Read.idx_main_v29 (Read.idx_main_v31 (ix2 i j)) = ix1 i := by
  funext a; match a with | ⟨0, _⟩ => rfl

private theorem idx32 (i j : Fin 8192) : Read.idx_main_v30 (Read.idx_main_v32 (ix2 i j)) = ix1 j := by
  funext a; match a with | ⟨0, _⟩ => rfl

/-- Two naturals below 2³² are equal when their 32-bit words are. -/
private theorem ofNat_inj_small {a b : ℕ} (ha : a < 2 ^ 32) (hb : b < 2 ^ 32) :
    BitVec.ofNat 32 a = BitVec.ofNat 32 b ↔ a = b := by
  constructor
  · intro h
    have h' := congrArg BitVec.toNat h
    simp only [BitVec.toNat_ofNat] at h'
    omega
  · rintro rfl; rfl

private theorem cmpi_eq_val {w : ℕ} (a b : BitVec w) : IntOp.cmpi .eq a b = if a = b then 1#1 else 0#1 := by
  by_cases h : a = b
  · rw [if_pos h]; exact StableHlo.Predicate.cmpi_eq_iff.mpr h
  · rw [if_neg h]
    exact eq_zero_of_ne_one (fun e => h (StableHlo.Predicate.cmpi_eq_iff.mp e))

private theorem cmpi_ne_val {w : ℕ} (a b : BitVec w) : IntOp.cmpi .ne a b = if a = b then 0#1 else 1#1 := by
  show BitVec.ofBool (!(a == b)) = _
  by_cases h : a = b
  · rw [if_pos h, beq_iff_eq.mpr h]; rfl
  · rw [if_neg h, beq_eq_false_iff_ne.mpr h]; rfl

/-- The mask at `(i, j)`: the two rows are of one class and are not the same row. -/
private theorem maskE (x1 : IVec S8192 32) (l : Fin 8192 → Fin 256)
    (hl : ∀ i, x1 (ix1 i) = BitVec.ofNat 32 (l i).val) (i j : Fin 8192) :
    Read.val_main_v34 (F := Ideal) x1 (ix2 i j) = if l i = l j ∧ i ≠ j then 1#1 else 0#1 := by
  rw [Read.val_main_v34_apply, Read.val_main_v28_apply, Read.val_main_v26_apply, Read.val_main_v24_apply, idx26,
    Read.val_main_v27_apply, Read.val_main_v25_apply, idx27, Read.val_main_v33_apply, Read.val_main_v31_apply,
    Read.val_main_v29_apply, idx31, Read.val_main_v23_apply, Read.val_main_v32_apply, Read.val_main_v30_apply, idx32,
    Read.val_main_v23_apply, hl, hl]
  show IntOp.andi (IntOp.cmpi .eq (BitVec.ofNat 32 (l i).val) (BitVec.ofNat 32 (l j).val))
    (IntOp.cmpi .ne (BitVec.ofNat 32 i.val) (BitVec.ofNat 32 j.val)) = _
  have hli := (l i).isLt
  have hlj := (l j).isLt
  have hi := i.isLt
  have hj := j.isLt
  have hA : BitVec.ofNat 32 (l i).val = BitVec.ofNat 32 (l j).val ↔ l i = l j := by
    rw [ofNat_inj_small (by omega) (by omega)]; exact Fin.val_inj
  have hB : BitVec.ofNat 32 i.val = BitVec.ofNat 32 j.val ↔ i = j := by
    rw [ofNat_inj_small (by omega) (by omega)]; exact Fin.val_inj
  rw [cmpi_eq_val, cmpi_ne_val]
  by_cases h1 : l i = l j
  · rw [if_pos (hA.2 h1)]
    by_cases h2 : i = j
    · rw [if_pos (hB.2 h2), if_neg (fun h : l i = l j ∧ i ≠ j => h.2 h2)]; rfl
    · rw [if_neg (fun h => h2 (hB.1 h)), if_pos (⟨h1, h2⟩ : l i = l j ∧ i ≠ j)]; rfl
  · rw [if_neg (fun h => h1 (hA.1 h)), if_neg (fun h : l i = l j ∧ i ≠ j => h1 h.1)]
    by_cases h2 : i = j
    · rw [if_pos (hB.2 h2)]; rfl
    · rw [if_neg (fun h => h2 (hB.1 h))]; rfl

/-- The masked entry at `(i, j)`: the summand of the pair where the mask holds, zero elsewhere. -/
private theorem entryE (x0 : FVec Ideal S8192x512 .f32) (x1 : IVec S8192 32) (Z : Fin 8192 → Fin 512 → ℝ)
    (l : Fin 8192 → Fin 256)
    (hZ : ∀ i d, x0 (ix2 i d) = ((Z i d : ℝ) : EReal))
    (hl : ∀ i, x1 (ix1 i) = BitVec.ofNat 32 (l i).val) (i j : Fin 8192) :
    Read.val_main_v38 (F := Ideal) x0 x1 (ix2 i j)
      = (((if l i = l j ∧ i ≠ j then refTerm l anchor Z i j else 0) : ℝ) : EReal) := by
  rw [Read.val_main_v38_apply, maskE x1 l hl, termE x0 x1 Z l hZ hl, Read.val_main_call0_v0_apply,
    Read.val_main_cst_5_apply, Ideal.ofBits_def, Ideal.ofBits_zero_f32]
  by_cases h : l i = l j ∧ i ≠ j
  · rw [if_pos h, if_pos h]; exact select_one _ _
  · rw [if_neg h, if_neg h, EReal.coe_zero]; exact select_zero _ _

/-- The sum of the masked matrix over both axes: the masked pair sum. -/
private theorem sumE (x0 : FVec Ideal S8192x512 .f32) (x1 : IVec S8192 32) (Z : Fin 8192 → Fin 512 → ℝ)
    (l : Fin 8192 → Fin 256)
    (hZ : ∀ i d, x0 (ix2 i d) = ((Z i d : ℝ) : EReal))
    (hl : ∀ i, x1 (ix1 i) = BitVec.ofNat 32 (l i).val) (i0 : S_.Idx) :
    Read.val_main_v39 (F := Ideal) x0 x1 i0 = ((refSum l anchor Z : ℝ) : EReal) := by
  rw [Read.val_main_v39_apply, Read.val_main_cst_6_apply, Ideal.ofBits_def, Ideal.ofBits_zero_f32, zero_add, sum_idx2]
  unfold refSum
  rw [coe_sum]
  refine Finset.sum_congr rfl fun a _ => ?_
  rw [coe_sum]
  exact Finset.sum_congr rfl fun b _ => entryE x0 x1 Z l hZ hl a b

/-- The number of ordered pairs is far below 2³¹. -/
private theorem refPairs_lt (l : Fin 8192 → Fin 256) : refPairs l < 2 ^ 31 := by
  unfold refPairs
  refine lt_of_le_of_lt (Finset.card_le_univ _) ?_
  rw [Fintype.card_prod, Fintype.card_fin]
  norm_num

/-- The integer sum of the widened mask, as a float: the number of ordered pairs. -/
private theorem countE (x1 : IVec S8192 32) (l : Fin 8192 → Fin 256)
    (hl : ∀ i, x1 (ix1 i) = BitVec.ofNat 32 (l i).val) (i0 : S_.Idx) :
    Read.val_main_v37 (F := Ideal) x1 i0 = (((refPairs l : ℕ) : ℝ) : EReal) := by
  have hfold : Read.val_main_v36 (F := Ideal) x1 i0 = BitVec.ofNat 32 (refPairs l) := by
    unfold Read.val_main_v36
    rw [Host.reduce_eq_fold, Finset.filter_true_of_mem (fun i _ => funext fun b => b.elim0)]
    show Finset.univ.fold IntOp.addi 0#32 (fun k => (Read.val_main_v34 (F := Ideal) x1 k).setWidth 32) = _
    rw [IndicatorCount.fold_addi_setWidth_eq_card]
    refine congrArg (BitVec.ofNat 32) ?_
    unfold refPairs
    refine (Finset.card_equiv (idxEquiv2 (n0 := 8192) (n1 := 8192)).symm fun p => ?_).symm
    simp only [Finset.mem_filter, Finset.mem_univ, true_and]
    show (l p.1 = l p.2 ∧ p.1 ≠ p.2) ↔ Read.val_main_v34 (F := Ideal) x1 (ix2 p.1 p.2) = 1#1
    rw [maskE x1 l hl]
    by_cases h : l p.1 = l p.2 ∧ p.1 ≠ p.2
    · rw [if_pos h]; exact iff_of_true h rfl
    · rw [if_neg h]; exact iff_of_false h (by decide)
  rw [Read.val_main_v37_apply, hfold]
  show ((((BitVec.ofNat 32 (refPairs l)).toInt : ℝ)) : EReal) = _
  rw [StableHlo.Predicate.toInt_ofNat_small _ (refPairs_lt l), Int.cast_natCast]

/-- The reference's result: the masked pair sum over the number of ordered pairs. -/
theorem ref_ideal (x0 : FVec Ideal S8192x512 .f32) (x1 : IVec S8192 32) (Z : Fin 8192 → Fin 512 → ℝ)
    (l : Fin 8192 → Fin 256)
    (hZ : ∀ i d, x0 (ix2 i d) = ((Z i d : ℝ) : EReal))
    (hl : ∀ i, x1 (ix1 i) = BitVec.ofNat 32 (l i).val) :
    Cert.ReferenceIdeal.Read.val_main_v40 (F := Ideal) x0 x1
      = fun _ => Ideal.div ((refSum l anchor Z : ℝ) : EReal) (((refPairs l : ℕ) : ℝ) : EReal) := by
  funext i0
  rw [Read.val_main_v40_apply, sumE x0 x1 Z l hZ hl, countE x1 l hl, Ideal.hostDivf_def]

end Cert.ReferenceIdeal.RefVal

end
-- ==== Proof.PreDecode.lean ====
/-
  The precondition, read: every entry of `Z` is a real number and every label is a class id below 256.
-/
import proofs.«420697_j17214228922603_3_alg».proof.Pre_finite_inputs
import proofs.«420697_j17214228922603_3_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.PreDecode

open Idealize.ShloMosaic Idealize.ShloMosaic.ValueIdx
open Cert.Pre_finite_inputs Cert.Pre_finite_inputs.Gen

/-- The scalar shape has exactly one index. -/
private instance subsingleton_scalar_idx : Subsingleton S_.Idx := ⟨fun a b => funext fun d => d.elim0⟩

/-- The word `0x7F800000` (exponent all ones, significand zero, sign clear) denotes `+∞`. -/
private theorem ofBits_inf : Ideal.ofBits .f32 0x7F800000#32 = (⊤ : EReal) := by
  simp [Ideal.ofBits, Ideal.ieee]

/-- An extended real whose absolute value `max x (-x)` is below `+∞` is a real number. -/
private theorem real_of_abs_lt_top (x : EReal) (hx : max x (-x) < ⊤) : ∃ r : ℝ, x = (r : EReal) := by
  induction x using EReal.rec with
  | bot => simp at hx
  | coe r => exact ⟨r, rfl⟩
  | top => simp at hx

/-- A 32-bit word whose signed reading lies in `[0, 256)` has unsigned reading below 256. -/
private theorem toNat_lt_of_toInt (v : BitVec 32) (h0 : (0#32 : BitVec 32).toInt ≤ v.toInt)
    (h1 : v.toInt < (256#32 : BitVec 32).toInt) : v.toNat < 256 := by
  have e0 : (0#32 : BitVec 32).toInt = 0 := by decide
  have e1 : (256#32 : BitVec 32).toInt = 256 := by decide
  rw [e0] at h0
  rw [e1] at h1
  have hv := v.isLt
  rw [BitVec.toInt_eq_toNat_cond] at h0 h1
  split at h0 <;> omega

/-- From the printed precondition: real entries, labels in `[0, 256)`. -/
theorem decode (x0 : FVec Ideal S8192x512 .f32) (x1 : IVec S8192 32)
    (h : Cert.Pre_finite_inputs.fn (F := Ideal) x0 x1 = fun _ => 1#1) :
    ∃ (Z : Fin 8192 → Fin 512 → ℝ) (l : Fin 8192 → Fin 256),
      (∀ i d, x0 (ix2 i d) = ((Z i d : ℝ) : EReal)) ∧ (∀ i, x1 (ix1 i) = BitVec.ofNat 32 (l i).val) := by
  have h0 := congrFun h ValueIdx.ix0
  dsimp only [Cert.Pre_finite_inputs.fn] at h0
  -- the conjunction of the three `all`s is 1, so each is
  obtain ⟨h01, hlt⟩ := IntOp.andi_eq_one.1 h0
  obtain ⟨hfin, hge⟩ := IntOp.andi_eq_one.1 h01
  -- every entry is a real number
  have hZ : ∀ i d, ∃ r : ℝ, x0 (ix2 i d) = (r : EReal) := by
    intro i d
    have e := Host.reduce_andi_all _ _ _ _ _ hfin (ix2 i d)
    have e' : Ideal.cmp .olt (max (x0 (ix2 i d)) (-(x0 (ix2 i d)))) (Ideal.ofBits .f32 0x7F800000#32) = 1#1 := e
    rw [ofBits_inf] at e'
    simp only [Ideal.cmp, StableHlo.Predicate.ofBool_eq_one_iff, decide_eq_true_eq] at e'
    exact real_of_abs_lt_top _ e'
  -- every label is a word below 256
  have hl : ∀ i, (x1 (ix1 i)).toNat < 256 := by
    intro i
    have e := Host.reduce_andi_all _ _ _ _ _ hge (ix1 i)
    have f := Host.reduce_andi_all _ _ _ _ _ hlt (ix1 i)
    have e' : IntOp.cmpi .sge (x1 (ix1 i)) 0#32 = 1#1 := e
    have f' : IntOp.cmpi .slt (x1 (ix1 i)) 256#32 = 1#1 := f
    exact toNat_lt_of_toInt _ (IntOp.cmpi_sge.1 e') (IntOp.cmpi_slt.1 f')
  choose Z hZ' using hZ
  refine ⟨Z, fun i => ⟨(x1 (ix1 i)).toNat, hl i⟩, hZ', fun i => ?_⟩
  show x1 (ix1 i) = BitVec.ofNat 32 (x1 (ix1 i)).toNat
  rw [BitVec.ofNat_toNat, BitVec.setWidth_eq]

end Cert.PreDecode

end
-- ==== Proof.lean ====
/-
  A masked pairwise mean squared error, grouped by class.

  The reference takes, for every ordered pair of distinct rows (i, j) of `Z` [8192, 512] with equal labels, the mean over
  the 512 coordinates of the squared difference between row `labels[i]` of `Z` (the label doubles as a row number: the
  pair's anchor) and row `j`, expanded as (|a|² + |z|² − 2 a·z) / 512 through one [8192, 8192] product, and averages over
  the pairs. The kernel program never forms the pairs: a Pallas matmul of the labels' indicator matrix [256, 8192] with
  `Z`, accumulated over four blocks of 2048 rows, gives each class's sum of rows `S`; the host counts each class (`n`) and
  sums its rows' squared norms (`Q`); and the result is ∑ (n − 1)(n |a|² + Q − 2 a·S) over 512 ∑ n (n − 1).

  Under the precondition — every entry of `Z` finite, every label in [0, 256) — both are the same extended real:
  inside one class the reference's summand does not depend on `i`, every `j` of the class meets n − 1 partners, and
  8192 rows in 256 classes leave at least one pair, so neither quotient divides by zero. The kernel program's value is read
  off its run (the resident block after the last grid point is the sum over all 8192 rows of indicator times entry); the
  reference's off its operations one at a time; the two real expressions are joined in `Cert.PairMse`.
-/
import proofs.«420697_j17214228922603_3_alg».proof.Defs
import proofs.«420697_j17214228922603_3_alg».proof.Proof.Gen.Kernel
import proofs.«420697_j17214228922603_3_alg».proof.Proof.Gen.Kernel.Skeleton
import proofs.«420697_j17214228922603_3_alg».proof.Proof.Gen.Kernel.Launch
import proofs.«420697_j17214228922603_3_alg».proof.Proof.Gen.Kernel.Points
import proofs.«420697_j17214228922603_3_alg».proof.Proof.Gen.Kernel.Frame
import proofs.«420697_j17214228922603_3_alg».proof.Proof.Gen.KernelIdeal
import proofs.«420697_j17214228922603_3_alg».proof.Proof.Gen.KernelIdeal.Skeleton
import proofs.«420697_j17214228922603_3_alg».proof.Proof.Gen.KernelIdeal.Launch
import proofs.«420697_j17214228922603_3_alg».proof.Proof.Gen.KernelIdeal.Points
import proofs.«420697_j17214228922603_3_alg».proof.Proof.Gen.KernelIdeal.Frame
import proofs.«420697_j17214228922603_3_alg».proof.Proof.Gen.ReferenceIdeal
import proofs.«420697_j17214228922603_3_alg».proof.Proof.Gen.ReferenceIdeal.Run
import proofs.«420697_j17214228922603_3_alg».proof.Proof.Gen.ReferenceIdeal.Read
import proofs.«420697_j17214228922603_3_alg».proof.Proof.Gen.Pre_finite_inputs
import proofs.«420697_j17214228922603_3_alg».proof.Proof.KerRun
import proofs.«420697_j17214228922603_3_alg».proof.Proof.RefIdeal
import proofs.«420697_j17214228922603_3_alg».proof.Proof.PreDecode
import Idealize.ShloMosaic.Adequacy
import Idealize.ShloMosaic.Init

noncomputable section

namespace Cert.Proof

open Idealize.ShloMosaic Idealize.SL.Sem

/-- The kernel program runs and leaves its arguments as launched (the generated frame, at the word level). -/
theorem frame_kernel : Cert.frame_Kernel := fun m ρ _ => Cert.Kernel.Gen.frame m ρ

/-- The same for its idealization. -/
theorem frame_kernelIdeal : Cert.frame_KernelIdeal := fun m ρ _ => Cert.KernelIdeal.Gen.frame m ρ

/-- The reference runs and leaves its arguments as launched: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Over the extended reals, from memories agreeing on `Z` and the labels, both programs end at one value: the grouped
    numerator over 512 times the grouped number of pairs is the masked pair sum over the number of pairs. -/
theorem algebraic : Cert.algebraic_KernelIdeal_ReferenceIdeal := by
  intro m ρ m' ρ' hpre hagree
  refine ⟨fun c => Cert.KernelIdeal.KVal.kerOut m c, Cert.KernelIdeal.KVal.run m ρ, ?_⟩
  refine (θ_run Cert.ReferenceIdeal.defs _ _).mono (fun _ h c => ⟨(h c).1.trans ?_, (h c).2⟩)
    (Cert.ReferenceIdeal.Value.run (F := Ideal) m' ρ')
  obtain ⟨Z, l, hZ, hl⟩ := Cert.PreDecode.decode _ _ (hpre c)
  refine (Cert.ReferenceIdeal.Read.val_main_v40_eq _ _).trans ?_
  show _ = Cert.KernelIdeal.KVal.kerOut m c
  rw [(hagree c).1, (hagree c).2, Cert.ReferenceIdeal.RefVal.ref_ideal _ _ Z l hZ hl,
    Cert.KernelIdeal.KVal.kerOut_ideal m c Z l hZ hl,
    Cert.PairMse.value_eq l Cert.PairMse.anchor Z Cert.PairMse.card_classes_lt_rows]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
